-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2100x768 : Shape := ⟨3, ![32, 2100, 768]⟩
abbrev S32x2000 : Shape := ⟨2, ![32, 2000]⟩
abbrev S768x1536 : Shape := ⟨2, ![768, 1536]⟩
abbrev S768 : Shape := ⟨1, ![768]⟩
abbrev S_ : Shape := ⟨0, ![]⟩

class Facts : Prop where
  bcast_S_S32x2100x768 : S_.BroadcastsInDim S32x2100x768 (![] : Fin 0 → Fin S32x2100x768.rank)
  reducesTo_S32x2100x768_S_d0_1_2 : S32x2100x768.ReducesTo [0, 1, 2] S_
  h_S_ : 0 < S_.numel
  bcast_S_S768x1536 : S_.BroadcastsInDim S768x1536 (![] : Fin 0 → Fin S768x1536.rank)
  reducesTo_S768x1536_S_d0_1 : S768x1536.ReducesTo [0, 1] S_
  bcast_S_S768 : S_.BroadcastsInDim S768 (![] : Fin 0 → Fin S768.rank)
  reducesTo_S768_S_d0 : S768.ReducesTo [0] S_
  bcast_S_S32x2000 : S_.BroadcastsInDim S32x2000 (![] : Fin 0 → Fin S32x2000.rank)
  reducesTo_S32x2000_S_d0_1 : S32x2000.ReducesTo [0, 1] S_

variable [Facts]

def fn_part1 {F : FTy → Type} [FloatOps F] (main_arg1 : IVec S32x2000 32) (main_v13 : IVec S_ 1) (main_v15 : IVec S32x2000 1) (main_c_5 : IVec S_ 1) : IVec S_ 1 :=
  let main_v16 : IVec S_ 1 := (fun x v => Host.reduce IntOp.andi x v reducesTo_S32x2000_S_d0_1 h_S_) main_v15 main_c_5
  let main_v17 : IVec S_ 1 := andi main_v13 main_v16
  let main_c_6 : IVec S_ 32 := constantI S_ 32 100#32
  let main_v18 : IVec S32x2000 32 := broadcastInDim S32x2000 ![] bcast_S_S32x2000 main_c_6
  let main_v19 : IVec S32x2000 1 := cmpi .sle main_arg1 main_v18
  let main_c_7 : IVec S_ 1 := constantI S_ 1 1#1
  let main_v20 : IVec S_ 1 := (fun x v => Host.reduce IntOp.andi x v reducesTo_S32x2000_S_d0_1 h_S_) main_v19 main_c_7
  let main_v21 : IVec S_ 1 := andi main_v17 main_v20
  main_v21

def fn {F : FTy → Type} [FloatOps F] (main_arg0 : FVec F S32x2100x768 .f32) (main_arg1 : IVec S32x2000 32) (main_arg2 : FVec F S768x1536 .f32) (main_arg3 : FVec F S768 .f32) : IVec S_ 1 :=
  let main_v0 : FVec F S32x2100x768 .f32 := Host.absf main_arg0
  let main_cst : FVec F S_ .f32 := constant S_ .f32 0x7F800000#32
  let main_v1 : FVec F S32x2100x768 .f32 := broadcastInDim S32x2100x768 ![] bcast_S_S32x2100x768 main_cst
  let main_v2 : IVec S32x2100x768 1 := cmpf .olt main_v0 main_v1
  let main_c : IVec S_ 1 := constantI S_ 1 1#1
  let main_v3 : IVec S_ 1 := (fun x v => Host.reduce IntOp.andi x v reducesTo_S32x2100x768_S_d0_1_2 h_S_) main_v2 main_c
  let main_v4 : FVec F S768x1536 .f32 := Host.absf main_arg2
  let main_cst_0 : FVec F S_ .f32 := constant S_ .f32 0x7F800000#32
  let main_v5 : FVec F S768x1536 .f32 := broadcastInDim S768x1536 ![] bcast_S_S768x1536 main_cst_0
  let main_v6 : IVec S768x1536 1 := cmpf .olt main_v4 main_v5
  let main_c_1 : IVec S_ 1 := constantI S_ 1 1#1
  let main_v7 : IVec S_ 1 := (fun x v => Host.reduce IntOp.andi x v reducesTo_S768x1536_S_d0_1 h_S_) main_v6 main_c_1
  let main_v8 : IVec S_ 1 := andi main_v3 main_v7
  let main_v9 : FVec F S768 .f32 := Host.absf main_arg3
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_c_4 : IVec S_ 32 := constantI S_ 32 1#32
  let main_v14 : IVec S32x2000 32 := broadcastInDim S32x2000 ![] bcast_S_S32x2000 main_c_4
  let main_v15 : IVec S32x2000 1 := cmpi .sge main_arg1 main_v14
  let main_c_5 : IVec S_ 1 := constantI S_ 1 1#1
  fn_part1 (F := F) main_arg1 main_v13 main_v15 main_c_5
-- ==== Kernel.lean ====
abbrev S32x2100x768 : Shape := ⟨3, ![32, 2100, 768]⟩
abbrev S32x2000 : Shape := ⟨2, ![32, 2000]⟩
abbrev S768x1536 : Shape := ⟨2, ![768, 1536]⟩
abbrev S768 : Shape := ⟨1, ![768]⟩
abbrev S_ : Shape := ⟨0, ![]⟩
abbrev S32x100 : Shape := ⟨2, ![32, 100]⟩
abbrev S32x2100 : Shape := ⟨2, ![32, 2100]⟩
abbrev S32x1x2100 : Shape := ⟨3, ![32, 1, 2100]⟩
abbrev S1x768 : Shape := ⟨2, ![1, 768]⟩
abbrev S32x100x768 : Shape := ⟨3, ![32, 100, 768]⟩
abbrev S1x2100x768 : Shape := ⟨3, ![1, 2100, 768]⟩
abbrev S1x1x2100 : Shape := ⟨3, ![1, 1, 2100]⟩
abbrev S1x100x768 : Shape := ⟨3, ![1, 100, 768]⟩
abbrev S2100x768 : Shape := ⟨2, ![2100, 768]⟩
abbrev S1x2100 : Shape := ⟨2, ![1, 2100]⟩
abbrev S100x768 : Shape := ⟨2, ![100, 768]⟩
abbrev S100x2100 : Shape := ⟨2, ![100, 2100]⟩
abbrev S100 : Shape := ⟨1, ![100]⟩
abbrev S100x1 : Shape := ⟨2, ![100, 1]⟩
abbrev S768x768 : Shape := ⟨2, ![768, 768]⟩

abbrev nBuf : Space → Nat
  | .hbm => 11
  | .vmem => 8
  | .smem => 0
  | _ => 0

abbrev bufTy : (tb : Table) → Fin (tcTables nBuf tb) → BufTy
  | .hbm, ⟨0, _⟩ => ⟨S32x2100x768, .f32⟩
  | .hbm, ⟨1, _⟩ => ⟨S32x2000, .i32⟩
  | .hbm, ⟨2, _⟩ => ⟨S768x1536, .f32⟩
  | .hbm, ⟨3, _⟩ => ⟨S768, .f32⟩
  | .hbm, ⟨4, _⟩ => ⟨S_, .i32⟩
  | .hbm, ⟨5, _⟩ => ⟨S32x100, .i32⟩
  | .hbm, ⟨6, _⟩ => ⟨S32x2100, .i32⟩
  | .hbm, ⟨7, _⟩ => ⟨S32x1x2100, .i32⟩
  | .hbm, ⟨8, _⟩ => ⟨S768x1536, .bf16⟩
  | .hbm, ⟨9, _⟩ => ⟨S1x768, .f32⟩
  | .hbm, ⟨10, _⟩ => ⟨S32x100x768, .f32⟩
  | .local _ .vmem, ⟨0, _⟩ => ⟨S1x2100x768, .f32⟩
  | .local _ .vmem, ⟨1, _⟩ => ⟨S1x2100x768, .f32⟩
  | .local _ .vmem, ⟨2, _⟩ => ⟨S1x1x2100, .i32⟩
  | .local _ .vmem, ⟨3, _⟩ => ⟨S1x1x2100, .i32⟩
  | .local _ .vmem, ⟨4, _⟩ => ⟨S768x1536, .bf16⟩
  | .local _ .vmem, ⟨5, _⟩ => ⟨S1x768, .f32⟩
  | .local _ .vmem, ⟨6, _⟩ => ⟨S1x100x768, .f32⟩
  | .local _ .vmem, ⟨7, _⟩ => ⟨S1x100x768, .f32⟩
  | _, _ => ⟨S32x2100x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2100x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2100 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x100x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S32x100 : S_.BroadcastsInDim S32x100 (![] : Fin 0 → Fin S32x100.rank)
  concatenates_S32x100_S32x2000_S32x2100_d1 : Shape.Concatenates [S32x100, S32x2000] S32x2100 1
  shapeCasts_S32x2100_S32x1x2100 : S32x2100.ShapeCasts S32x1x2100
  bitsLt_bf16_f32 : FTy.bits .bf16 < FTy.bits .f32
  shapeCasts_S768_S1x768 : S768.ShapeCasts S1x768
  inb_S1x2100x768_S1x2100x768_0_0_0 : ∀ a, (![0, 0, 0] : Fin 3 → Nat) a + S1x2100x768.size a ≤ S1x2100x768.size a
  h_S1x2100x768 : 0 < S1x2100x768.numel
  shapeCasts_S1x2100x768_S2100x768 : S1x2100x768.ShapeCasts S2100x768
  inb_S1x1x2100_S1x1x2100_0_0_0 : ∀ a, (![0, 0, 0] : Fin 3 → Nat) a + S1x1x2100.size a ≤ S1x1x2100.size a
  h_S1x1x2100 : 0 < S1x1x2100.numel
  shapeCasts_S1x1x2100_S1x2100 : S1x1x2100.ShapeCasts S1x2100
  slices_S2100x768_o0_0_S100x768 : S2100x768.Slices ![0, 0] S100x768
  reduces_S100x768_S768 : S100x768.Reduces [0] S768
  iota_S100x2100_d0_w32 : S100x2100.Iotas .tc 32 [0]
  broadcasts_S1x2100_S100x2100 : S1x2100.Broadcasts S100x2100
  natLt_1_32 : 1 < 32
  reduces_S100x2100_S100 : S100x2100.Reduces [1] S100
  shapeCasts_S100_S100x1 : S100.ShapeCasts S100x1
  broadcasts_S100x1_S100x768 : S100x1.Broadcasts S100x768
  inb_S768x1536_S768x768_0_0 : ∀ a, (![0, 0] : Fin 2 → Nat) a + S768x768.size a ≤ S768x1536.size a
  h_S768x768 : 0 < S768x768.numel
  shapeCasts_S768x768_S768x768 : S768x768.ShapeCasts S768x768
  inb_S768x1536_S768x768_0_768 : ∀ a, (![0, 768] : Fin 2 → Nat) a + S768x768.size a ≤ S768x1536.size a
  shapeCasts_S1x768_S1x768 : S1x768.ShapeCasts S1x768
  broadcasts_S1x768_S100x768 : S1x768.Broadcasts S100x768
  inb_S1x768_S1x768_0_0 : ∀ a, (![0, 0] : Fin 2 → Nat) a + S1x768.size a ≤ S1x768.size a
  h_S1x768 : 0 < S1x768.numel
  inb_S1x100x768_S1x100x768_0_0_0 : ∀ a, (![0, 0, 0] : Fin 3 → Nat) a + S1x100x768.size a ≤ S1x100x768.size a
  h_S1x100x768 : 0 < S1x100x768.numel
  shapeCasts_S1x100x768_S100x768 : S1x100x768.ShapeCasts S100x768
  shapeCasts_S100x768_S1x100x768 : S100x768.ShapeCasts S1x100x768
  dot_S100x2100_S2100x768_S100x768_1_0_0_1_n_n_wf : DotDims.WF S100x2100 S2100x768 S100x768 [1] [0] [0] [1] [] []
  dot_S100x768_S768x768_S100x768_1_1_0_0_n_n_wf : DotDims.WF S100x768 S768x768 S100x768 [1] [1] [0] [0] [] []
  dot_S1x768_S768x768_S1x768_1_1_0_0_n_n_wf : DotDims.WF S1x768 S768x768 S1x768 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2100x768.size a ≤ S32x2100x768.size a
  hwx0_0 : ∀ i : grid0.Coords, EltTy.bits .f32 = 32 ∨ (Rect.block (s := S32x2100x768) S1x2100x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2100.size a ≤ S32x1x2100.size a
  hwx0_1 : ∀ i : grid0.Coords, EltTy.bits .i32 = 32 ∨ (Rect.block (s := S32x1x2100) S1x1x2100.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x1536.size a ≤ S768x1536.size a
  hwx0_2 : ∀ i : grid0.Coords, EltTy.bits .bf16 = 32 ∨ (Rect.block (s := S768x1536) S768x1536.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x768.size a ≤ S1x768.size a
  hwx0_3 : ∀ i : grid0.Coords, EltTy.bits .f32 = 32 ∨ (Rect.block (s := S1x768) S1x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x100x768.size a ≤ S32x100x768.size a
  hwx0_4 : ∀ i : grid0.Coords, EltTy.bits .f32 = 32 ∨ (Rect.block (s := S32x100x768) S1x100x768.size (cc0_transform_4 i) (hinb0_4 i)).WholeWords (EltTy.packing .f32)

variable [Facts₀]

def dot_S100x2100_S2100x768_S100x768_1_0_0_1_n_n : DotDims S100x2100 S2100x768 S100x768 where
  lhsContracting := [1]
  rhsContracting := [0]
  lhsNonContracting := [0]
  rhsNonContracting := [1]
  lhsBatch := []
  rhsBatch := []
  wf := dot_S100x2100_S2100x768_S100x768_1_0_0_1_n_n_wf
def dot_S100x768_S768x768_S100x768_1_1_0_0_n_n : DotDims S100x768 S768x768 S100x768 where
  lhsContracting := [1]
  rhsContracting := [1]
  lhsNonContracting := [0]
  rhsNonContracting := [0]
  lhsBatch := []
  rhsBatch := []
  wf := dot_S100x768_S768x768_S100x768_1_1_0_0_n_n_wf
def dot_S1x768_S768x768_S1x768_1_1_0_0_n_n : DotDims S1x768 S768x768 S1x768 where
  lhsContracting := [1]
  rhsContracting := [1]
  lhsNonContracting := [0]
  rhsNonContracting := [0]
  lhsBatch := []
  rhsBatch := []
  wf := dot_S1x768_S768x768_S1x768_1_1_0_0_n_n_wf

abbrev win0_0 : Pipeline.Window sig grid0 :=
  Pipeline.Window.ofSpec (Memref.whole main_arg0) S1x2100x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x1x2100.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S768x1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x100x768.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x2100x768 : Shape := ⟨3, ![32, 2100, 768]⟩
abbrev S32x2000 : Shape := ⟨2, ![32, 2000]⟩
abbrev S768x1536 : Shape := ⟨2, ![768, 1536]⟩
abbrev S768 : Shape := ⟨1, ![768]⟩
abbrev S32x100x768 : Shape := ⟨3, ![32, 100, 768]⟩
abbrev S_ : Shape := ⟨0, ![]⟩
abbrev S32x768 : Shape := ⟨2, ![32, 768]⟩
abbrev S32x2000x768 : Shape := ⟨3, ![32, 2000, 768]⟩
abbrev S32 : Shape := ⟨1, ![32]⟩
abbrev S32x1 : Shape := ⟨2, ![32, 1]⟩
abbrev S64000 : Shape := ⟨1, ![64000]⟩
abbrev S64000x768 : Shape := ⟨2, ![64000, 768]⟩
abbrev S3200x768 : Shape := ⟨2, ![3200, 768]⟩
abbrev S64000x1 : Shape := ⟨2, ![64000, 1]⟩
abbrev S3200 : Shape := ⟨1, ![3200]⟩
abbrev S3200x1 : Shape := ⟨2, ![3200, 1]⟩
abbrev S3200x1536 : Shape := ⟨2, ![3200, 1536]⟩
abbrev S1536x768 : Shape := ⟨2, ![1536, 768]⟩
abbrev S1x768 : Shape := ⟨2, ![1, 768]⟩

abbrev nBuf : Space → Nat
  | .hbm => 45
  | .vmem => 0
  | .smem => 0
  | _ => 0

abbrev bufTy : (tb : Table) → Fin (tcTables nBuf tb) → BufTy
  | .hbm, ⟨0, _⟩ => ⟨S32x2100x768, .f32⟩
  | .hbm, ⟨1, _⟩ => ⟨S32x2000, .i32⟩
  | .hbm, ⟨2, _⟩ => ⟨S768x1536, .f32⟩
  | .hbm, ⟨3, _⟩ => ⟨S768, .f32⟩
  | .hbm, ⟨4, _⟩ => ⟨S32x100x768, .f32⟩
  | .hbm, ⟨5, _⟩ => ⟨S_, .f32⟩
  | .hbm, ⟨6, _⟩ => ⟨S32x768, .f32⟩
  | .hbm, ⟨7, _⟩ => ⟨S_, .f32⟩
  | .hbm, ⟨8, _⟩ => ⟨S32x768, .f32⟩
  | .hbm, ⟨9, _⟩ => ⟨S32x768, .f32⟩
  | .hbm, ⟨10, _⟩ => ⟨S32x2000x768, .f32⟩
  | .hbm, ⟨11, _⟩ => ⟨S32, .i32⟩
  | .hbm, ⟨12, _⟩ => ⟨S32x1, .i32⟩
  | .hbm, ⟨13, _⟩ => ⟨S_, .i32⟩
  | .hbm, ⟨14, _⟩ => ⟨S32x1, .i32⟩
  | .hbm, ⟨15, _⟩ => ⟨S32x1, .i32⟩
  | .hbm, ⟨16, _⟩ => ⟨S_, .i32⟩
  | .hbm, ⟨17, _⟩ => ⟨S32x2000, .i32⟩
  | .hbm, ⟨18, _⟩ => ⟨S32x2000, .i32⟩
  | .hbm, ⟨19, _⟩ => ⟨S32x2000, .i32⟩
  | .hbm, ⟨20, _⟩ => ⟨S32x2000, .i32⟩
  | .hbm, ⟨21, _⟩ => ⟨S64000, .i32⟩
  | .hbm, ⟨22, _⟩ => ⟨S64000x768, .f32⟩
  | .hbm, ⟨23, _⟩ => ⟨S_, .f32⟩
  | .hbm, ⟨24, _⟩ => ⟨S3200x768, .f32⟩
  | .hbm, ⟨25, _⟩ => ⟨S64000x1, .i32⟩
  | .hbm, ⟨26, _⟩ => ⟨S3200x768, .f32⟩
  | .hbm, ⟨27, _⟩ => ⟨S_, .f32⟩
  | .hbm, ⟨28, _⟩ => ⟨S64000, .f32⟩
  | .hbm, ⟨29, _⟩ => ⟨S_, .f32⟩
  | .hbm, ⟨30, _⟩ => ⟨S3200, .f32⟩
  | .hbm, ⟨31, _⟩ => ⟨S64000x1, .i32⟩
  | .hbm, ⟨32, _⟩ => ⟨S3200, .f32⟩
  | .hbm, ⟨33, _⟩ => ⟨S3200x1, .f32⟩
  | .hbm, ⟨34, _⟩ => ⟨S3200x768, .f32⟩
  | .hbm, ⟨35, _⟩ => ⟨S3200x768, .f32⟩
  | .hbm, ⟨36, _⟩ => ⟨S32x100x768, .f32⟩
  | .hbm, ⟨37, _⟩ => ⟨S3200x768, .f32⟩
  | .hbm, ⟨38, _⟩ => ⟨S3200x1536, .f32⟩
  | .hbm, ⟨39, _⟩ => ⟨S1536x768, .f32⟩
  | .hbm, ⟨40, _⟩ => ⟨S3200x768, .f32⟩
  | .hbm, ⟨41, _⟩ => ⟨S1x768, .f32⟩
  | .hbm, ⟨42, _⟩ => ⟨S3200x768, .f32⟩
  | .hbm, ⟨43, _⟩ => ⟨S3200x768, .f32⟩
  | .hbm, ⟨44, _⟩ => ⟨S32x100x768, .f32⟩
  | _, _ => ⟨S32x2100x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]

class Facts₀ : Prop where
  slices_S32x2100x768_S32x100x768_0_0_0 : S32x2100x768.Slices ![0, 0, 0] S32x100x768
  reducesTo_S32x100x768_S32x768_d1 : S32x100x768.ReducesTo [1] S32x768
  h_S_ : 0 < S_.numel
  bcast_S_S32x768 : S_.BroadcastsInDim S32x768 (![] : Fin 0 → Fin S32x768.rank)
  slices_S32x2100x768_S32x2000x768_0_100_0 : S32x2100x768.Slices ![0, 100, 0] S32x2000x768
  bcast_S32_S32x1_0 : S32.BroadcastsInDim S32x1 (![0] : Fin 1 → Fin S32x1.rank)
  bcast_S_S32x1 : S_.BroadcastsInDim S32x1 (![] : Fin 0 → Fin S32x1.rank)
  bcast_S_S32x2000 : S_.BroadcastsInDim S32x2000 (![] : Fin 0 → Fin S32x2000.rank)
  bcast_S32x1_S32x2000_0_1 : S32x1.BroadcastsInDim S32x2000 (![0, 1] : Fin 2 → Fin S32x2000.rank)
  shapeCasts_S32x2000_S64000 : S32x2000.ShapeCasts S64000
  shapeCasts_S32x2000x768_S64000x768 : S32x2000x768.ShapeCasts S64000x768
  bcast_S_S3200x768 : S_.BroadcastsInDim S3200x768 (![] : Fin 0 → Fin S3200x768.rank)
  bcast_S64000_S64000x1_0 : S64000.BroadcastsInDim S64000x1 (![0] : Fin 1 → Fin S64000x1.rank)
  bcast_S_S64000 : S_.BroadcastsInDim S64000 (![] : Fin 0 → Fin S64000.rank)
  bcast_S_S3200 : S_.BroadcastsInDim S3200 (![] : Fin 0 → Fin S3200.rank)
  bcast_S3200_S3200x1_0 : S3200.BroadcastsInDim S3200x1 (![0] : Fin 1 → Fin S3200x1.rank)
  bcast_S3200x1_S3200x768_0_1 : S3200x1.BroadcastsInDim S3200x768 (![0, 1] : Fin 2 → Fin S3200x768.rank)
  bcast_S32x768_S32x100x768_0_2 : S32x768.BroadcastsInDim S32x100x768 (![0, 2] : Fin 2 → Fin S32x100x768.rank)
  shapeCasts_S32x100x768_S3200x768 : S32x100x768.ShapeCasts S3200x768
  concatenates_S3200x768_S3200x768_S3200x1536_d1 : Shape.Concatenates [S3200x768, S3200x768] S3200x1536 1
  transposes_S768x1536_S1536x768_1_0 : S768x1536.Transposes [1, 0] S1536x768
  bcast_S768_S1x768_1 : S768.BroadcastsInDim S1x768 (![1] : Fin 1 → Fin S1x768.rank)
  bcast_S1x768_S3200x768_0_1 : S1x768.BroadcastsInDim S3200x768 (![0, 1] : Fin 2 → Fin S3200x768.rank)
  shapeCasts_S3200x768_S32x100x768 : S3200x768.ShapeCasts S32x100x768
  scatter_S3200x768_S64000x1_S64000x768_1_0_0_1_wf : ScatterDims.WF S3200x768 S64000x1 S64000x768 [1] [0] [0] 1
  scatter_S3200_S64000x1_S64000_n_0_0_1_wf : ScatterDims.WF S3200 S64000x1 S64000 [] [0] [0] 1
  dot_S3200x1536_S1536x768_S3200x768_1_0_0_1_n_n_wf : DotDims.WF S3200x1536 S1536x768 S3200x768 [1] [0] [0] [1] [] []

variable [Facts₀]

def scatter_S3200x768_S64000x1_S64000x768_1_0_0_1 : ScatterDims S3200x768 S64000x1 S64000x768 where
  updateWindowDims := [1]
  insertedWindowDims := [0]
  scatterDimsToOperandDims := [0]
  indexVectorDim := 1
  wf := scatter_S3200x768_S64000x1_S64000x768_1_0_0_1_wf
def scatter_S3200_S64000x1_S64000_n_0_0_1 : ScatterDims S3200 S64000x1 S64000 where
  updateWindowDims := []
  insertedWindowDims := [0]
  scatterDimsToOperandDims := [0]
  indexVectorDim := 1
  wf := scatter_S3200_S64000x1_S64000_n_0_0_1_wf
def dot_S3200x1536_S1536x768_S3200x768_1_0_0_1_n_n : DotDims S3200x1536 S1536x768 S3200x768 where
  lhsContracting := [1]
  rhsContracting := [0]
  lhsNonContracting := [0]
  rhsNonContracting := [1]
  lhsBatch := []
  rhsBatch := []
  wf := dot_S3200x1536_S1536x768_S3200x768_1_0_0_1_n_n_wf

class Facts : Prop extends Facts₀ where

variable [Facts]
-- ==== Proof.Spec.lean ====
/-
  Segment mean pooling followed by a linear merge, as ONE function of the four argument arrays.

  For example b (of 32) the 2100 tokens are 100 vision tokens followed by 2000 trace tokens; trace token t carries a
  label mask[b, t], and segment s (of 100) of example b is the set of trace tokens labelled s + 1. The result at
  (b, s, h) is

      sum_k (segSum b s k / segCount b s) * w[h, k]  +  sum_k visionMean b k * w[h, 768 + k]  +  bias[h]

  with segSum the sum of the segment's token features, segCount the segment's size and visionMean the mean of the
  100 vision tokens. All sums are over extended reals; nothing here needs the entries to be finite, because the
  only products with a 0/1 weight are 0 * x = 0 and 1 * x = x, which hold on all of EReal.

  Also here: what one grid step computes from its blocks (blockValue), and the index arithmetic that joins the two
  ways the programs name a segment: by a one-hot row over the 2100 tokens, and by a global id b * 100 + (label - 1)
  over the 64000 flattened trace tokens.
-/
import Idealize.ShloMosaic.PureOps.Ideal
import Idealize.ShloMosaic.PureOps.Ideal.Laws
import Idealize.ShloMosaic.Lib.ValueIdx

noncomputable section

namespace Cert.SegPool

open Idealize.ShloMosaic Idealize.ShloMosaic.ValueIdx

abbrev SFeat : Shape := ⟨3, ![32, 2100, 768]⟩
abbrev SMask : Shape := ⟨2, ![32, 2000]⟩
abbrev SWgt : Shape := ⟨2, ![768, 1536]⟩
abbrev SBias : Shape := ⟨1, ![768]⟩
abbrev SOut : Shape := ⟨3, ![32, 100, 768]⟩

/-- Trace token t is row 100 + t of its example. -/
abbrev traceRow (t : Fin 2000) : Fin 2100 := ⟨100 + t.val, by omega⟩
/-- Vision token r is row r of its example. -/
abbrev visionRow (r : Fin 100) : Fin 2100 := ⟨r.val, by omega⟩
/-- Column k of the trace half of the merge weight. -/
abbrev traceCol (k : Fin 768) : Fin 1536 := ⟨k.val, by omega⟩
/-- Column k of the vision half of the merge weight. -/
abbrev visionCol (k : Fin 768) : Fin 1536 := ⟨768 + k.val, by omega⟩

/-- The trace tokens of example b labelled s + 1. -/
def members (mask : SMask.Idx → BitVec 32) (b : Fin 32) (s : Fin 100) : Finset (Fin 2000) :=
  Finset.univ.filter fun t => mask (ix2 b t) = BitVec.ofNat 32 (s.val + 1)

/-- The sum of a segment's token features, per hidden coordinate. -/
def segSum (feat : SFeat.Idx → EReal) (mask : SMask.Idx → BitVec 32) (b : Fin 32) (s : Fin 100) (k : Fin 768) : EReal :=
  ∑ t ∈ members mask b s, feat (ix3 b (traceRow t) k)

/-- The size of a segment, as an extended real. -/
def segCount (mask : SMask.Idx → BitVec 32) (b : Fin 32) (s : Fin 100) : EReal :=
  ∑ _t ∈ members mask b s, (1 : EReal)

/-- The mean of the 100 vision tokens of example b (the quotient by the float 100.0). -/
def visionMean (feat : SFeat.Idx → EReal) (b : Fin 32) (k : Fin 768) : EReal :=
  Ideal.div (∑ r : Fin 100, feat (ix3 b (visionRow r) k)) (Ideal.ofBits .f32 0x42C80000#32)

/-- The result at (b, s, h). -/
def pooledAt (feat : SFeat.Idx → EReal) (mask : SMask.Idx → BitVec 32) (w : SWgt.Idx → EReal) (bias : SBias.Idx → EReal)
    (b : Fin 32) (s : Fin 100) (h : Fin 768) : EReal :=
  ((∑ k : Fin 768, Ideal.div (segSum feat mask b s k) (segCount mask b s) * w (ix2 h (traceCol k)))
    + (∑ k : Fin 768, visionMean feat b k * w (ix2 h (visionCol k)))) + bias (ix1 h)

/-- The whole result array. -/
def pooled (feat : SFeat.Idx → EReal) (mask : SMask.Idx → BitVec 32) (w : SWgt.Idx → EReal) (bias : SBias.Idx → EReal) :
    SOut.Idx → EReal :=
  fun i => pooledAt feat mask w bias (i 0) (i 1) (i 2)

/-! ## One grid step -/

/-- The one-hot weight of token t (of 2100) for segment s: 1 when the row's label at t is s + 1, else 0. -/
def hot (row : Fin 2100 → BitVec 32) (s : Fin 100) (t : Fin 2100) : EReal :=
  if row t = BitVec.ofNat 32 (s.val + 1) then 1 else 0

/-- What one grid step computes at (s, h) from its blocks: x the example's [1, 2100, 768] features, row its 2100
    labels (the first 100 are padding), wt and wv the two [768, 768] halves of the weight, bb the bias as a [1, 768] row. -/
def blockValue (x : (⟨3, ![1, 2100, 768]⟩ : Shape).Idx → EReal) (row : Fin 2100 → BitVec 32)
    (wt wv : (⟨2, ![768, 768]⟩ : Shape).Idx → EReal) (bb : (⟨2, ![1, 768]⟩ : Shape).Idx → EReal) (s : Fin 100) (h : Fin 768) : EReal :=
  ((∑ k : Fin 768, Ideal.div (∑ t : Fin 2100, hot row s t * x (ix3 (0 : Fin 1) t k)) (∑ t : Fin 2100, hot row s t) * wt (ix2 h k))
    + (∑ k : Fin 768, Ideal.div (∑ r : Fin 100, x (ix3 (0 : Fin 1) (visionRow r) k)) (Ideal.ofBits .f32 0x42C80000#32) * wv (ix2 h k)))
  + bb (ix2 (0 : Fin 1) h)

/-! ## The flattened trace tokens and their global segment ids -/

abbrev tokExample (n : Fin 64000) : Fin 32 := ⟨n.val / 2000, by omega⟩
abbrev tokPos (n : Fin 64000) : Fin 2000 := ⟨n.val % 2000, Nat.mod_lt _ (by decide)⟩
abbrev flatTok (b : Fin 32) (t : Fin 2000) : Fin 64000 := ⟨b.val * 2000 + t.val, by omega⟩

/-- The global segment id of flattened trace token n, in 32-bit words: example * 100 + (label - 1). -/
def globalId (mask : SMask.Idx → BitVec 32) (n : Fin 64000) : BitVec 32 :=
  BitVec.ofNat 32 (n.val / 2000) * 100#32 + (mask (ix2 (tokExample n) (tokPos n)) - 1#32)

end Cert.SegPool

end
-- ==== Proof.LibMaskedSelect.lean ====
/-
  General lemmas for a row-wise selection written as a masked sum, none of them about a particular program.

  * `broadcastTo_a1_ab_apply`: a column [a, 1] broadcast to [a, b] reads, at (p, c), the column's entry p — the
    keepdims form a per-row weight is spread over a row in.
  * `Host.reduce_andi_of_all`: a reduce by `and` from an initial 1 over an array of 1s is 1 (the converse of
    Lib/ReduceAll.lean's `Host.reduce_andi_eq_one`): how an in-range test that is true everywhere reads after `jnp.all`
    along an axis.
  * `toNat_lt_of_sge_slt`: a 32-bit word that compares signed ≥ 0 and signed < n (n below 2³¹) has unsigned value below n:
    what the two comparisons of an index-range precondition say of the word.
  * `eq_ofNat_of_toNat_lt`: such a word is the word of an index below n.
-/
import Idealize.ShloMosaic.Lib.ReduceAll
import Idealize.ShloMosaic.Lib.ValueIdx
import Idealize.ShloMosaic.Lib.Pipeline.Value
import Idealize.ShloMosaic.Lib.StableHlo.Predicate

namespace Idealize.ShloMosaic.MaskedSelect

open Idealize.ShloMosaic Idealize.ShloMosaic.ValueIdx

/-- An `[a, 1]` column broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A left fold by `and` from 1 over words that are all 1 is 1. -/
theorem foldl_andi_of_all {ι : Type} (f : ι → BitVec 1) :
    ∀ (l : List ι) (init : BitVec 1), init = 1#1 → (∀ n ∈ l, f n = 1#1) → l.foldl (fun r n => IntOp.andi r (f n)) init = 1#1
  | [], _, hi, _ => hi
  | a :: l, init, hi, hl => by
    refine foldl_andi_of_all f l _ ?_ (fun n hn => hl n (List.mem_cons_of_mem _ hn))
    show IntOp.andi init (f a) = 1#1
    rw [hi, hl a (List.mem_cons_self ..)]
    decide

/-- A `stablehlo.reduce` by `and` whose initial value is 1 and whose operand is 1 everywhere is 1 everywhere. -/
theorem reduce_andi_of_all {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl]
  exact foldl_andi_of_all x _ _ hinit (fun i _ => hx i)

/-- A word that is signed ≥ 0 and signed < n, for n below 2³¹, is below n read unsigned. -/
theorem toNat_lt_of_sge_slt (v : BitVec 32) (n : ℕ) (hn : n < 2 ^ 31) (h0 : IntOp.cmpi .sge v 0#32 = 1#1)
    (h1 : IntOp.cmpi .slt v (BitVec.ofNat 32 n) = 1#1) : v.toNat < n := by
  simp only [IntOp.cmpi, StableHlo.Predicate.ofBool_eq_one_iff, BitVec.sle, BitVec.slt, decide_eq_true_eq] at h0 h1
  rw [StableHlo.Predicate.toInt_ofNat_small n hn] at h1
  have hz : (0#32 : BitVec 32).toInt = 0 := by decide
  rw [hz] at h0
  rw [BitVec.toInt_eq_toNat_cond] at h0 h1
  split at h0 <;> omega

/-- A word whose unsigned value is below n is the word of some index below n. -/
theorem eq_ofNat_of_toNat_lt (v : BitVec 32) (n : ℕ) (h : v.toNat < n) : ∃ e : Fin n, v = BitVec.ofNat 32 e.val :=
  ⟨⟨v.toNat, h⟩, BitVec.eq_of_toNat_eq (by rw [BitVec.toNat_ofNat]; exact (Nat.mod_eq_of_lt v.isLt).symm)⟩

end Idealize.ShloMosaic.MaskedSelect
-- ==== Proof.KernelBody.lean ====
/-
  The body's arithmetic at an index: the three products read as sums over their contracted axis, the one-hot weights,
  the row counts and the mean of the first 100 rows, then the body's result at (s, h) assembled from them.
-/
import proofs.«429078_j13520557048022_2_alg».proof.Proof.Gen.KernelIdeal.Skeleton
import proofs.«429078_j13520557048022_2_alg».proof.Proof.Spec
import Idealize.ShloMosaic.PureOps.Ideal.Laws
import Idealize.ShloMosaic.Lib.ValueIdx
import Idealize.ShloMosaic.Lib.Pipeline.Value
import Idealize.ShloMosaic.Lib.ValueLayout
import Idealize.ShloMosaic.Lib.StableHlo.Predicate
import proofs.«429078_j13520557048022_2_alg».proof.Proof.LibMaskedSelect

noncomputable section

namespace Cert.SegPool

open Idealize.ShloMosaic Idealize.ShloMosaic.ValueIdx Cert.KernelIdeal Cert.KernelIdeal.Gen

/-! ## The first product: [100, 2100] × [2100, 768], contracting axis 1 with axis 0 -/

private theorem lhs_v22_0 (i : S100x768.Idx) (q : dot_S100x2100_S2100x768_S100x768_1_0_0_1_n_n.contr.Idx) :
    (dot_S100x2100_S2100x768_S100x768_1_0_0_1_n_n.lhsIdx i q 0).val = (i 0).val := by
  unfold DotDims.lhsIdx
  rw [dif_neg (show ¬(0 : Fin S100x2100.rank) ∈ dot_S100x2100_S2100x768_S100x768_1_0_0_1_n_n.lhsBatch by decide), dif_pos (show (0 : Fin S100x2100.rank) ∈ dot_S100x2100_S2100x768_S100x768_1_0_0_1_n_n.lhsNonContracting by decide)]
  rfl
private theorem lhs_v22_1 (i : S100x768.Idx) (q : dot_S100x2100_S2100x768_S100x768_1_0_0_1_n_n.contr.Idx) :
    (dot_S100x2100_S2100x768_S100x768_1_0_0_1_n_n.lhsIdx i q 1).val = (q ⟨0, by decide⟩).val :=
  dot_S100x2100_S2100x768_S100x768_1_0_0_1_n_n.lhsIdx_val_of_single rfl i q
private theorem rhs_v22_0 (i : S100x768.Idx) (q : dot_S100x2100_S2100x768_S100x768_1_0_0_1_n_n.contr.Idx) :
    (dot_S100x2100_S2100x768_S100x768_1_0_0_1_n_n.rhsIdx i q 0).val = (q ⟨0, by decide⟩).val :=
  dot_S100x2100_S2100x768_S100x768_1_0_0_1_n_n.rhsIdx_val_of_single rfl i q
private theorem rhs_v22_1 (i : S100x768.Idx) (q : dot_S100x2100_S2100x768_S100x768_1_0_0_1_n_n.contr.Idx) :
    (dot_S100x2100_S2100x768_S100x768_1_0_0_1_n_n.rhsIdx i q 1).val = (i 1).val := by
  unfold DotDims.rhsIdx
  rw [dif_neg (show ¬(1 : Fin S2100x768.rank) ∈ dot_S100x2100_S2100x768_S100x768_1_0_0_1_n_n.rhsBatch by decide), dif_pos (show (1 : Fin S2100x768.rank) ∈ dot_S100x2100_S2100x768_S100x768_1_0_0_1_n_n.rhsNonContracting by decide)]
  rfl

/-- The product into a zero accumulator, at (s, k): the sum over the 2100 contracted positions. -/
private theorem mm_v22_apply (A : FVec Ideal S100x2100 .bf16) (B : FVec Ideal S2100x768 .bf16) (s : Fin 100) (k : Fin 768) :
    matmul (F := Ideal) dot_S100x2100_S2100x768_S100x768_1_0_0_1_n_n none A B (constant (F := Ideal) S100x768 .f32 0x00000000#32) (ix2 s k)
      = ∑ t : Fin 2100, A (ix2 s t) * B (ix2 t k) := by
  refine (Ideal.matmul_constant_zero_apply dot_S100x2100_S2100x768_S100x768_1_0_0_1_n_n none A B (ix2 s k)).trans ?_
  rw [← Equiv.sum_comp (ValueIdx.contrEquiv1 dot_S100x2100_S2100x768_S100x768_1_0_0_1_n_n 2100 rfl rfl).symm]
  refine Finset.sum_congr rfl fun t _ => ?_
  have hk := ValueIdx.contrEquiv1_symm_val dot_S100x2100_S2100x768_S100x768_1_0_0_1_n_n 2100 rfl rfl t
  have el : dot_S100x2100_S2100x768_S100x768_1_0_0_1_n_n.lhsIdx (ix2 s k) ((ValueIdx.contrEquiv1 dot_S100x2100_S2100x768_S100x768_1_0_0_1_n_n 2100 rfl rfl).symm t) = ix2 s t := funext fun a => Fin.ext (by
    match a with
    | ⟨0, _⟩ => exact lhs_v22_0 _ _
    | ⟨1, _⟩ => exact (lhs_v22_1 _ _).trans hk)
  have er : dot_S100x2100_S2100x768_S100x768_1_0_0_1_n_n.rhsIdx (ix2 s k) ((ValueIdx.contrEquiv1 dot_S100x2100_S2100x768_S100x768_1_0_0_1_n_n 2100 rfl rfl).symm t) = ix2 t k := funext fun a => Fin.ext (by
    match a with
    | ⟨0, _⟩ => exact (rhs_v22_0 _ _).trans hk
    | ⟨1, _⟩ => exact rhs_v22_1 _ _)
  rw [el, er]

/-! ## The second product: [100, 768] × [768, 768], contracting axis 1 with axis 1 -/

private theorem lhs_v30_0 (i : S100x768.Idx) (q : dot_S100x768_S768x768_S100x768_1_1_0_0_n_n.contr.Idx) :
    (dot_S100x768_S768x768_S100x768_1_1_0_0_n_n.lhsIdx i q 0).val = (i 0).val := by
  unfold DotDims.lhsIdx
  rw [dif_neg (show ¬(0 : Fin S100x768.rank) ∈ dot_S100x768_S768x768_S100x768_1_1_0_0_n_n.lhsBatch by decide), dif_pos (show (0 : Fin S100x768.rank) ∈ dot_S100x768_S768x768_S100x768_1_1_0_0_n_n.lhsNonContracting by decide)]
  rfl
private theorem lhs_v30_1 (i : S100x768.Idx) (q : dot_S100x768_S768x768_S100x768_1_1_0_0_n_n.contr.Idx) :
    (dot_S100x768_S768x768_S100x768_1_1_0_0_n_n.lhsIdx i q 1).val = (q ⟨0, by decide⟩).val :=
  dot_S100x768_S768x768_S100x768_1_1_0_0_n_n.lhsIdx_val_of_single rfl i q
private theorem rhs_v30_0 (i : S100x768.Idx) (q : dot_S100x768_S768x768_S100x768_1_1_0_0_n_n.contr.Idx) :
    (dot_S100x768_S768x768_S100x768_1_1_0_0_n_n.rhsIdx i q 0).val = (i 1).val := by
  unfold DotDims.rhsIdx
  rw [dif_neg (show ¬(0 : Fin S768x768.rank) ∈ dot_S100x768_S768x768_S100x768_1_1_0_0_n_n.rhsBatch by decide), dif_pos (show (0 : Fin S768x768.rank) ∈ dot_S100x768_S768x768_S100x768_1_1_0_0_n_n.rhsNonContracting by decide)]
  rfl
private theorem rhs_v30_1 (i : S100x768.Idx) (q : dot_S100x768_S768x768_S100x768_1_1_0_0_n_n.contr.Idx) :
    (dot_S100x768_S768x768_S100x768_1_1_0_0_n_n.rhsIdx i q 1).val = (q ⟨0, by decide⟩).val :=
  dot_S100x768_S768x768_S100x768_1_1_0_0_n_n.rhsIdx_val_of_single rfl i q

/-- The product into a zero accumulator, at (s, h): the sum over the 768 contracted positions, both operands read along
    their second axis. -/
private theorem mm_v30_apply (A : FVec Ideal S100x768 .bf16) (B : FVec Ideal S768x768 .bf16) (s : Fin 100) (h : Fin 768) :
    matmul (F := Ideal) dot_S100x768_S768x768_S100x768_1_1_0_0_n_n none A B (constant (F := Ideal) S100x768 .f32 0x00000000#32) (ix2 s h)
      = ∑ k : Fin 768, A (ix2 s k) * B (ix2 h k) := by
  refine (Ideal.matmul_constant_zero_apply dot_S100x768_S768x768_S100x768_1_1_0_0_n_n none A B (ix2 s h)).trans ?_
  rw [← Equiv.sum_comp (ValueIdx.contrEquiv1 dot_S100x768_S768x768_S100x768_1_1_0_0_n_n 768 rfl rfl).symm]
  refine Finset.sum_congr rfl fun k _ => ?_
  have hk := ValueIdx.contrEquiv1_symm_val dot_S100x768_S768x768_S100x768_1_1_0_0_n_n 768 rfl rfl k
  have el : dot_S100x768_S768x768_S100x768_1_1_0_0_n_n.lhsIdx (ix2 s h) ((ValueIdx.contrEquiv1 dot_S100x768_S768x768_S100x768_1_1_0_0_n_n 768 rfl rfl).symm k) = ix2 s k := funext fun a => Fin.ext (by
    match a with
    | ⟨0, _⟩ => exact lhs_v30_0 _ _
    | ⟨1, _⟩ => exact (lhs_v30_1 _ _).trans hk)
  have er : dot_S100x768_S768x768_S100x768_1_1_0_0_n_n.rhsIdx (ix2 s h) ((ValueIdx.contrEquiv1 dot_S100x768_S768x768_S100x768_1_1_0_0_n_n 768 rfl rfl).symm k) = ix2 h k := funext fun a => Fin.ext (by
    match a with
    | ⟨0, _⟩ => exact rhs_v30_0 _ _
    | ⟨1, _⟩ => exact (rhs_v30_1 _ _).trans hk)
  rw [el, er]

/-! ## The third product: [1, 768] × [768, 768], contracting axis 1 with axis 1 -/

private theorem lhs_v32_0 (i : S1x768.Idx) (q : dot_S1x768_S768x768_S1x768_1_1_0_0_n_n.contr.Idx) :
    (dot_S1x768_S768x768_S1x768_1_1_0_0_n_n.lhsIdx i q 0).val = (i 0).val := by
  unfold DotDims.lhsIdx
  rw [dif_neg (show ¬(0 : Fin S1x768.rank) ∈ dot_S1x768_S768x768_S1x768_1_1_0_0_n_n.lhsBatch by decide), dif_pos (show (0 : Fin S1x768.rank) ∈ dot_S1x768_S768x768_S1x768_1_1_0_0_n_n.lhsNonContracting by decide)]
  rfl
private theorem lhs_v32_1 (i : S1x768.Idx) (q : dot_S1x768_S768x768_S1x768_1_1_0_0_n_n.contr.Idx) :
    (dot_S1x768_S768x768_S1x768_1_1_0_0_n_n.lhsIdx i q 1).val = (q ⟨0, by decide⟩).val :=
  dot_S1x768_S768x768_S1x768_1_1_0_0_n_n.lhsIdx_val_of_single rfl i q
private theorem rhs_v32_0 (i : S1x768.Idx) (q : dot_S1x768_S768x768_S1x768_1_1_0_0_n_n.contr.Idx) :
    (dot_S1x768_S768x768_S1x768_1_1_0_0_n_n.rhsIdx i q 0).val = (i 1).val := by
  unfold DotDims.rhsIdx
  rw [dif_neg (show ¬(0 : Fin S768x768.rank) ∈ dot_S1x768_S768x768_S1x768_1_1_0_0_n_n.rhsBatch by decide), dif_pos (show (0 : Fin S768x768.rank) ∈ dot_S1x768_S768x768_S1x768_1_1_0_0_n_n.rhsNonContracting by decide)]
  rfl
private theorem rhs_v32_1 (i : S1x768.Idx) (q : dot_S1x768_S768x768_S1x768_1_1_0_0_n_n.contr.Idx) :
    (dot_S1x768_S768x768_S1x768_1_1_0_0_n_n.rhsIdx i q 1).val = (q ⟨0, by decide⟩).val :=
  dot_S1x768_S768x768_S1x768_1_1_0_0_n_n.rhsIdx_val_of_single rfl i q

/-- The product into a zero accumulator, at (s, h): the sum over the 768 contracted positions, both operands read along
    their second axis. -/
private theorem mm_v32_apply (A : FVec Ideal S1x768 .bf16) (B : FVec Ideal S768x768 .bf16) (s : Fin 1) (h : Fin 768) :
    matmul (F := Ideal) dot_S1x768_S768x768_S1x768_1_1_0_0_n_n none A B (constant (F := Ideal) S1x768 .f32 0x00000000#32) (ix2 s h)
      = ∑ k : Fin 768, A (ix2 s k) * B (ix2 h k) := by
  refine (Ideal.matmul_constant_zero_apply dot_S1x768_S768x768_S1x768_1_1_0_0_n_n none A B (ix2 s h)).trans ?_
  rw [← Equiv.sum_comp (ValueIdx.contrEquiv1 dot_S1x768_S768x768_S1x768_1_1_0_0_n_n 768 rfl rfl).symm]
  refine Finset.sum_congr rfl fun k _ => ?_
  have hk := ValueIdx.contrEquiv1_symm_val dot_S1x768_S768x768_S1x768_1_1_0_0_n_n 768 rfl rfl k
  have el : dot_S1x768_S768x768_S1x768_1_1_0_0_n_n.lhsIdx (ix2 s h) ((ValueIdx.contrEquiv1 dot_S1x768_S768x768_S1x768_1_1_0_0_n_n 768 rfl rfl).symm k) = ix2 s k := funext fun a => Fin.ext (by
    match a with
    | ⟨0, _⟩ => exact lhs_v32_0 _ _
    | ⟨1, _⟩ => exact (lhs_v32_1 _ _).trans hk)
  have er : dot_S1x768_S768x768_S1x768_1_1_0_0_n_n.rhsIdx (ix2 s h) ((ValueIdx.contrEquiv1 dot_S1x768_S768x768_S1x768_1_1_0_0_n_n 768 rfl rfl).symm k) = ix2 h k := funext fun a => Fin.ext (by
    match a with
    | ⟨0, _⟩ => exact rhs_v32_0 _ _
    | ⟨1, _⟩ => exact (rhs_v32_1 _ _).trans hk)
  rw [el, er]

/-! ## The one-hot weights, the counts, the vision mean -/

/-- A one-bit word widened to 32 bits and converted signed is 1 for the word 1. -/
private theorem sitofp_bit_one : (FloatOps.sitofp (F := Ideal) .f32 ((1#1 : BitVec 1).setWidth 32) : Ideal .f32) = (1 : EReal) := by
  show ((((1#1 : BitVec 1).setWidth 32).toInt : ℝ) : EReal) = 1
  rw [show ((1#1 : BitVec 1).setWidth 32).toInt = 1 by decide]
  norm_num

/-- … and 0 for the word 0. -/
private theorem sitofp_bit_zero : (FloatOps.sitofp (F := Ideal) .f32 ((0#1 : BitVec 1).setWidth 32) : Ideal .f32) = (0 : EReal) := by
  show ((((0#1 : BitVec 1).setWidth 32).toInt : ℝ) : EReal) = 0
  rw [show ((0#1 : BitVec 1).setWidth 32).toInt = 0 by decide]
  norm_num

/-- The weights the body computes — the label row broadcast down 100 rows and compared with the row number plus one, the
    bit widened and converted — are the one-hot weights, at (s, t). -/
private theorem onehot_apply (L : IVec S1x1x2100 32) (s : Fin 100) (t : Fin 2100) :
    (sitofp (F := Ideal) .f32 (extui 32 (cmpi .eq (broadcastTo S100x2100 (shapeCast S1x2100 L shapeCasts_S1x1x2100_S1x2100) broadcasts_S1x2100_S100x2100)
        (addi (iota .tc S100x2100 32 [0] iota_S100x2100_d0_w32) (broadcast S100x2100 1#32))) natLt_1_32) : FVec Ideal S100x2100 .f32) (ix2 s t)
      = hot (fun t => L (ix3 (0 : Fin 1) (0 : Fin 1) t)) s t := by
  show FloatOps.sitofp (F := Ideal) .f32 ((IntOp.cmpi .eq
      (broadcastTo S100x2100 (shapeCast S1x2100 L shapeCasts_S1x1x2100_S1x2100) broadcasts_S1x2100_S100x2100 (ix2 s t))
      (IntOp.addi (iota .tc S100x2100 32 [0] iota_S100x2100_d0_w32 (ix2 s t)) 1#32)).setWidth 32) = _
  rw [broadcastTo_1b_ab_apply, shapeCast_1ab_ab_apply, iota_single_apply]
  have e : IntOp.addi (BitVec.ofNat 32 ((ix2 s t : S100x2100.Idx) 0).val) 1#32 = BitVec.ofNat 32 (s.val + 1) := by
    show BitVec.ofNat 32 s.val + BitVec.ofNat 32 1 = BitVec.ofNat 32 (s.val + 1)
    rw [BitVec.ofNat_add]
  rw [e]
  unfold hot
  by_cases hc : L (ix3 (0 : Fin 1) (0 : Fin 1) t) = BitVec.ofNat 32 (s.val + 1)
  · rw [if_pos hc, StableHlo.Predicate.cmpi_eq_iff.2 hc]
    exact sitofp_bit_one
  · rw [if_neg hc, eq_zero_of_ne_one (fun h1 => hc (StableHlo.Predicate.cmpi_eq_iff.1 h1))]
    exact sitofp_bit_zero

/-- A lane sum of a [100, 2100] array, kept as a column and broadcast over 768 columns, reads at (s, k) the sum of row s. -/
private theorem rowsum_apply (W : FVec Ideal S100x2100 .f32) (s : Fin 100) (k : Fin 768) :
    broadcastTo S100x768 (shapeCast S100x1 (multiReduction (F := Ideal) .add [1] S100 W 0x00000000#32 reduces_S100x2100_S100 (.inl rfl) rfl) shapeCasts_S100_S100x1)
        broadcasts_S100x1_S100x768 (ix2 s k)
      = ∑ t : Fin 2100, W (ix2 s t) := by
  rw [Idealize.ShloMosaic.MaskedSelect.broadcastTo_a1_ab_apply]
  rw [shapeCast_apply _ shapeCasts_S100_S100x1 (ix2 s (0 : Fin 1)) (ix1 s) (by
    rw [Shape.rowMajor_val_one, Shape.rowMajor_val_two]
    show s.val = s.val * 1 + 0
    omega)]
  refine (Ideal.multiReduction_add_single _ _ _ _ _ _).trans ?_
  refine Finset.sum_congr rfl fun t _ => congrArg W ?_
  funext a
  match a with
  | ⟨0, _⟩ => rfl
  | ⟨1, _⟩ => rfl

/-- The column sums of the first 100 rows of a [2100, 768] array, as a [1, 768] row, at (0, k). -/
private theorem colsum_apply (X : FVec Ideal S2100x768 .f32) (k : Fin 768) :
    shapeCast S1x768 (multiReduction (F := Ideal) .add [0] S768 (extractStridedSlice S100x768 ![0, 0] X slices_S2100x768_o0_0_S100x768) 0x00000000#32
        reduces_S100x768_S768 (.inl rfl) rfl) shapeCasts_S768_S1x768 (ix2 (0 : Fin 1) k)
      = ∑ r : Fin 100, X (ix2 (visionRow r) k) := by
  rw [shapeCast_a_1a_apply]
  refine (Ideal.multiReduction_add_single _ _ _ _ _ _).trans ?_
  refine Finset.sum_congr rfl fun r _ => ?_
  have e : reduces_S100x768_S768.lift (ix1 k) r = ix2 r k := by
    funext a
    match a with
    | ⟨0, _⟩ => rfl
    | ⟨1, _⟩ => rfl
  rw [e]
  exact slice2_axis0_apply 0 X slices_S2100x768_o0_0_S100x768 r k (visionRow r) (by show r.val = 0 + r.val; omega)

/-- One grid step's result at (s, h), from the vectors the body loads. -/
theorem body_apply [Cert.KernelIdeal.Facts] (P0 : Vec Ideal S1x2100x768 .f32) (P1 : Vec Ideal S1x1x2100 .i32)
    (P2 P3 : Vec Ideal S768x768 .bf16) (P4 : Vec Ideal S1x768 .f32) (s : Fin 100) (h : Fin 768) :
    k0_pay2 (F := Ideal) P0 P1 P2 P3 P4 (ix2 s h)
      = blockValue P0 (fun t => P1 (ix3 (0 : Fin 1) (0 : Fin 1) t)) P2 P3 P4 s h := by
  unfold k0_pay2 blockValue
  show ((_ : EReal) + _) + _ = _
  refine congrArg₂ (· + ·) (congrArg₂ (· + ·) ?_ ?_) ?_
  · -- the trace half: the segment means times the first weight block
    refine (mm_v30_apply _ _ s h).trans ?_
    refine Finset.sum_congr rfl fun k _ => ?_
    rw [shapeCast_self]
    refine congrArg (· * P2 (ix2 h k)) ?_
    show Ideal.div _ _ = Ideal.div _ _
    refine congrArg₂ Ideal.div ?_ ?_
    · refine (mm_v22_apply _ _ s k).trans ?_
      refine Finset.sum_congr rfl fun t _ => ?_
      refine congrArg₂ (· * ·) ?_ ?_
      · exact onehot_apply _ s t
      · exact shapeCast_1ab_ab_apply P0 _ t k
    · refine (rowsum_apply _ s k).trans ?_
      exact Finset.sum_congr rfl fun t _ => onehot_apply _ s t
  · -- the vision half: the mean of the first 100 rows times the second weight block
    rw [broadcastTo_1b_ab_apply, shapeCast_self]
    refine (mm_v32_apply _ _ (0 : Fin 1) h).trans ?_
    refine Finset.sum_congr rfl fun k _ => ?_
    rw [shapeCast_self]
    refine congrArg (· * P3 (ix2 h k)) ?_
    show Ideal.div _ _ = Ideal.div _ _
    refine congrArg₂ Ideal.div ?_ rfl
    refine (colsum_apply _ k).trans ?_
    exact Finset.sum_congr rfl fun r _ => shapeCast_1ab_ab_apply P0 _ (visionRow r) k
  · -- the bias row
    rw [broadcastTo_1b_ab_apply, shapeCast_self]

end Cert.SegPool

end
-- ==== Proof.SumLemmas.lean ====
/-
  Index arithmetic on the sums of Spec.lean.
-/
import proofs.«429078_j13520557048022_2_alg».proof.Proof.Spec
import Idealize.ShloMosaic.Lib.StableHlo.Predicate
import Mathlib.Algebra.BigOperators.Fin

noncomputable section

namespace Cert.SegPool

open Idealize.ShloMosaic Idealize.ShloMosaic.ValueIdx

/-- The word of a label s + 1 with s < 100 is not the padding word 0: its value is s + 1 ≥ 1. -/
private theorem label_ne_zero (s : Fin 100) : BitVec.ofNat 32 (s.val + 1) ≠ 0#32 := by
  intro h
  have h' : (s.val + 1) % 2 ^ 32 = 0 := by
    have := congrArg BitVec.toNat h
    simpa [BitVec.toNat_ofNat] using this
  have := s.isLt
  omega

/-- A one-hot-weighted sum over the 2100 rows of an example whose first 100 labels are the padding 0 is the sum over
    the trace tokens carrying the label. -/
theorem hot_sum (maskrow : Fin 2000 → BitVec 32) (row : Fin 2100 → BitVec 32)
    (hpad : ∀ t : Fin 2100, t.val < 100 → row t = 0#32) (htrace : ∀ t : Fin 2000, row (traceRow t) = maskrow t)
    (y : Fin 2100 → EReal) (s : Fin 100) :
    ∑ t : Fin 2100, hot row s t * y t
      = ∑ t ∈ Finset.univ.filter (fun t : Fin 2000 => maskrow t = BitVec.ofNat 32 (s.val + 1)), y (traceRow t) := by
  -- 0 * x = 0 and 1 * x = x: the weighted sum is the sum over the rows carrying the label
  simp only [hot, ite_mul, one_mul, zero_mul]
  rw [← Finset.sum_filter]
  -- those rows are exactly the images 100 + t of the trace tokens carrying the label
  symm
  refine Finset.sum_bij (fun t _ => traceRow t) ?_ ?_ ?_ ?_
  · intro t ht
    simp only [Finset.mem_filter, Finset.mem_univ, true_and] at ht ⊢
    rw [htrace]; exact ht
  · intro t₁ _ t₂ _ h
    have e : 100 + t₁.val = 100 + t₂.val := congrArg Fin.val h
    exact Fin.ext (by omega)
  · intro t ht
    simp only [Finset.mem_filter, Finset.mem_univ, true_and] at ht
    have hge : 100 ≤ t.val := by
      by_contra hlt
      exact label_ne_zero s (by rw [← ht, hpad t (by omega)])
    have ht2 := t.isLt
    have hback : traceRow ⟨t.val - 100, by omega⟩ = t := Fin.ext (by show 100 + (t.val - 100) = t.val; omega)
    refine ⟨⟨t.val - 100, by omega⟩, ?_, hback⟩
    simp only [Finset.mem_filter, Finset.mem_univ, true_and]
    rw [← htrace, hback]; exact ht
  · intro t _; rfl

/-- The one-hot weights themselves sum to the number of trace tokens carrying the label. -/
theorem hot_count (maskrow : Fin 2000 → BitVec 32) (row : Fin 2100 → BitVec 32)
    (hpad : ∀ t : Fin 2100, t.val < 100 → row t = 0#32) (htrace : ∀ t : Fin 2000, row (traceRow t) = maskrow t)
    (s : Fin 100) :
    ∑ t : Fin 2100, hot row s t
      = ∑ _t ∈ Finset.univ.filter (fun t : Fin 2000 => maskrow t = BitVec.ofNat 32 (s.val + 1)), (1 : EReal) := by
  have h := hot_sum maskrow row hpad htrace (fun _ => (1 : EReal)) s
  simp only [mul_one] at h
  exact h

/-- A sum over the 1536 merged columns is the sum over the trace half plus the sum over the vision half. -/
theorem sum_split_1536 (f : Fin 1536 → EReal) :
    ∑ k : Fin 1536, f k = (∑ k : Fin 768, f (traceCol k)) + ∑ k : Fin 768, f (visionCol k) := by
  show ∑ k : Fin (768 + 768), f k = _
  rw [Fin.sum_univ_add]
  rfl

/-- With every label in 1..100 the global id does not wrap: its value is example * 100 + (label - 1). -/
private theorem globalId_toNat (mask : SMask.Idx → BitVec 32) (hr : ∀ i, 1 ≤ (mask i).toNat ∧ (mask i).toNat ≤ 100)
    (n : Fin 64000) :
    (globalId mask n).toNat = n.val / 2000 * 100 + ((mask (ix2 (tokExample n) (tokPos n))).toNat - 1) := by
  obtain ⟨h1, h2⟩ := hr (ix2 (tokExample n) (tokPos n))
  have hn := n.isLt
  unfold globalId
  simp only [BitVec.toNat_add, BitVec.toNat_mul, BitVec.toNat_sub, BitVec.toNat_ofNat]
  omega

/-- So the signed reading of the global id is that same natural number (it is below 3200 < 2³¹). -/
private theorem globalId_toInt (mask : SMask.Idx → BitVec 32) (hr : ∀ i, 1 ≤ (mask i).toNat ∧ (mask i).toNat ≤ 100)
    (n : Fin 64000) :
    (globalId mask n).toInt
      = ((n.val / 2000 * 100 + ((mask (ix2 (tokExample n) (tokPos n))).toNat - 1) : ℕ) : ℤ) := by
  obtain ⟨h1, h2⟩ := hr (ix2 (tokExample n) (tokPos n))
  have hn := n.isLt
  have hlt : (globalId mask n).toNat < 2 ^ 31 := by
    rw [globalId_toNat mask hr n]; omega
  rw [StableHlo.Predicate.toInt_eq_toNat_of_lt hlt, globalId_toNat mask hr n]

/-- The global id of token n is b * 100 + s exactly when n lies in example b and carries the label s + 1. -/
private theorem globalId_eq_iff (mask : SMask.Idx → BitVec 32) (hr : ∀ i, 1 ≤ (mask i).toNat ∧ (mask i).toNat ≤ 100)
    (n : Fin 64000) (b : Fin 32) (s : Fin 100) :
    (globalId mask n).toInt = ((b.val * 100 + s.val : ℕ) : ℤ)
      ↔ n.val / 2000 = b.val ∧ mask (ix2 (tokExample n) (tokPos n)) = BitVec.ofNat 32 (s.val + 1) := by
  obtain ⟨h1, h2⟩ := hr (ix2 (tokExample n) (tokPos n))
  have hs := s.isLt
  have hb := b.isLt
  rw [globalId_toInt mask hr n, Nat.cast_inj]
  constructor
  · intro h
    refine ⟨by omega, BitVec.eq_of_toNat_eq ?_⟩
    rw [BitVec.toNat_ofNat]; omega
  · rintro ⟨hq, hm⟩
    have hm' := congrArg BitVec.toNat hm
    rw [BitVec.toNat_ofNat] at hm'
    omega

/-- With every label in 1..100, the flattened trace tokens whose global id is b * 100 + s are exactly the tokens of
    example b labelled s + 1. -/
theorem scatter_sum (mask : SMask.Idx → BitVec 32) (hr : ∀ i, 1 ≤ (mask i).toNat ∧ (mask i).toNat ≤ 100)
    (y : Fin 64000 → EReal) (b : Fin 32) (s : Fin 100) :
    ∑ n ∈ Finset.univ.filter (fun n : Fin 64000 => (globalId mask n).toInt = ((b.val * 100 + s.val : ℕ) : ℤ)), y n
      = ∑ t ∈ members mask b s, y (flatTok b t) := by
  unfold members
  have hb := b.isLt
  -- the flattened token b * 2000 + t lies in example b at position t
  have hE : ∀ t : Fin 2000, tokExample (flatTok b t) = b := fun t =>
    Fin.ext (by have := t.isLt; show (b.val * 2000 + t.val) / 2000 = b.val; omega)
  have hP : ∀ t : Fin 2000, tokPos (flatTok b t) = t := fun t =>
    Fin.ext (by have := t.isLt; show (b.val * 2000 + t.val) % 2000 = t.val; omega)
  -- a token of example b is the flattening of its position
  have hF : ∀ n : Fin 64000, n.val / 2000 = b.val → flatTok b (tokPos n) = n := fun n hq =>
    Fin.ext (by show b.val * 2000 + n.val % 2000 = n.val; omega)
  have hEx : ∀ n : Fin 64000, n.val / 2000 = b.val → tokExample n = b := fun n hq => Fin.ext hq
  refine Finset.sum_bij (fun n _ => tokPos n) ?_ ?_ ?_ ?_
  · intro n hn
    simp only [Finset.mem_filter, Finset.mem_univ, true_and] at hn ⊢
    obtain ⟨hq, hm⟩ := (globalId_eq_iff mask hr n b s).mp hn
    rw [← hEx n hq]; exact hm
  · intro n₁ h₁ n₂ h₂ h
    simp only [Finset.mem_filter, Finset.mem_univ, true_and] at h₁ h₂
    obtain ⟨hq₁, _⟩ := (globalId_eq_iff mask hr n₁ b s).mp h₁
    obtain ⟨hq₂, _⟩ := (globalId_eq_iff mask hr n₂ b s).mp h₂
    rw [← hF n₁ hq₁, ← hF n₂ hq₂, h]
  · intro t ht
    simp only [Finset.mem_filter, Finset.mem_univ, true_and] at ht
    refine ⟨flatTok b t, ?_, hP t⟩
    simp only [Finset.mem_filter, Finset.mem_univ, true_and]
    rw [globalId_eq_iff mask hr]
    refine ⟨congrArg Fin.val (hE t), ?_⟩
    rw [hE t, hP t]; exact ht
  · intro n hn
    simp only [Finset.mem_filter, Finset.mem_univ, true_and] at hn
    obtain ⟨hq, _⟩ := (globalId_eq_iff mask hr n b s).mp hn
    rw [hF n hq]

end Cert.SegPool

end
-- ==== Proof.KernelArray.lean ====
/-
  The kernel's result array as the pooled function of the argument arrays.

  Grid point t works on example t: its blocks are example t's [1, 2100, 768] features, its 2100 labels (the host
  pads the 2000 labels with 100 leading zeros), the whole weight (cast down, which is the identity on extended
  reals) and the bias as a [1, 768] row; it writes block t of the [32, 100, 768] result. What the step computes from
  its blocks is blockValue (KernelBody.lean); with the blocks read off the arrays, and the one-hot sums over the
  2100 padded rows turned into sums over the labelled trace tokens (SumLemmas.lean: the padding label 0 is never a
  segment's label s + 1), that is the pooled function at (t, s, h). The 32 blocks tile the result array.
-/
import proofs.«429078_j13520557048022_2_alg».proof.Proof.Gen.KernelIdeal.Value
import proofs.«429078_j13520557048022_2_alg».proof.Proof.Spec
import proofs.«429078_j13520557048022_2_alg».proof.Proof.KernelBody
import proofs.«429078_j13520557048022_2_alg».proof.Proof.SumLemmas
import Idealize.ShloMosaic.Lib.Pipeline.Value
import Idealize.ShloMosaic.Lib.ValueIdx
import Idealize.ShloMosaic.Lib.StableHlo.Run

noncomputable section

namespace Cert.SegPool.Kernel

open Cert.KernelIdeal Cert.KernelIdeal.Gen Idealize.ShloMosaic Idealize.ShloMosaic.TcCoe Idealize.SL.Sem
open Idealize.ShloMosaic.ValueIdx Idealize.ShloMosaic.StableHlo Cert.SegPool
open Idealize.ShloMosaic.Pipeline (Dat)

variable (m : (ℓ : Loc nD τ sig) → Buf (Elt Ideal) ℓ) (ρ : Dev nD → PrngReg)

/-- The four argument arrays on core c. -/
abbrev featOf (c : Dev nD) : SFeat.Idx → EReal := m ((c : Thread nD τ).loc main_arg0)
abbrev maskOf (c : Dev nD) : SMask.Idx → BitVec 32 := m ((c : Thread nD τ).loc main_arg1)
abbrev wgtOf (c : Dev nD) : SWgt.Idx → EReal := m ((c : Thread nD τ).loc main_arg2)
abbrev biasOf (c : Dev nD) : SBias.Idx → EReal := m ((c : Thread nD τ).loc main_arg3)

/-- The index maps over the grid: point t's feature, label and result blocks are block t along the example axis;
    the weight and the bias have one block. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

theorem N_eq : cfg0.N = 32 := by decide +kernel

/-! ## The arrays the host writes before the region, read at an index -/

/-- The weight as the region finds it: the argument cast down, which changes nothing on extended reals. -/
theorem wgt_entry (c : Dev nD) (i : S768x1536.Idx) : (V m c main_v3 : S768x1536.Idx → EReal) i = wgtOf m c i := by
  have e : (V m c main_v3 : S768x1536.Idx → EReal) = truncf (F := Ideal) .bf16 (wgtOf m c) bitsLt_bf16_f32 := by
    dsimp only [Gen.V, Gen.hostOps0]; after_results
  rw [e]; rfl

/-- The bias as the region finds it: the argument as a one-row matrix. -/
theorem bias_entry (c : Dev nD) (h : Fin 768) : (V m c main_v4 : S1x768.Idx → EReal) (ix2 (0 : Fin 1) h) = biasOf m c (ix1 h) := by
  have e : (V m c main_v4 : S1x768.Idx → EReal) = shapeCast S1x768 (biasOf m c) shapeCasts_S768_S1x768 := by
    dsimp only [Gen.V, Gen.hostOps0]; after_results; rfl
  rw [e]
  exact shapeCast_apply (biasOf m c) shapeCasts_S768_S1x768 (ix2 (0 : Fin 1) h) (ix1 h)
    (by rewrite [Shape.rowMajor_val_one, Shape.rowMajor_val_two]; show h.val = 0 * 768 + h.val; omega)

/-- The labels as the region finds them: each example's 2000 labels behind 100 zeros, as a [32, 1, 2100] array. -/
theorem labels_eq (c : Dev nD) : (V m c main_v2 : S32x1x2100.Idx → BitVec 32)
    = shapeCast S32x1x2100 (concatenate S32x2100 1 [⟨S32x100, broadcastInDim S32x100 ![] bcast_S_S32x100 (constantI S_ 32 0#32)⟩, ⟨S32x2000, maskOf m c⟩]
        concatenates_S32x100_S32x2000_S32x2100_d1) shapeCasts_S32x2100_S32x1x2100 := by
  dsimp only [Gen.V, Gen.hostOps0]; after_results; rfl

/-- A padding position holds the label 0. -/
theorem labels_pad (c : Dev nD) (b : Fin 32) (t : Fin 2100) (ht : t.val < 100) :
    (V m c main_v2 : S32x1x2100.Idx → BitVec 32) (ix3 b (0 : Fin 1) t) = 0#32 := by
  rw [labels_eq]
  refine (shapeCast_apply _ shapeCasts_S32x2100_S32x1x2100 (ix3 b (0 : Fin 1) t) (ix2 b t)
    (by rewrite [Shape.rowMajor_val_two, Shape.rowMajor_val_three]; show b.val * 2100 + t.val = (b.val * 1 + 0) * 2100 + t.val; omega)).trans ?_
  refine (concatenate_pair_apply_left (t := S32x2100) (s₁ := S32x100) (s₂ := S32x2000) (1 : Fin 2) _ _ concatenates_S32x100_S32x2000_S32x2100_d1 (ix2 b t) rfl (ix2 b (⟨t.val, ht⟩ : Fin 100))
    (fun a => by match a with | ⟨0, _⟩ => rfl | ⟨1, _⟩ => rfl)).trans ?_
  rfl

/-- Position 100 + t holds trace token t's label. -/
theorem labels_trace (c : Dev nD) (b : Fin 32) (t : Fin 2000) :
    (V m c main_v2 : S32x1x2100.Idx → BitVec 32) (ix3 b (0 : Fin 1) (traceRow t)) = maskOf m c (ix2 b t) := by
  rw [labels_eq]
  refine (shapeCast_apply _ shapeCasts_S32x2100_S32x1x2100 (ix3 b (0 : Fin 1) (traceRow t)) (ix2 b (traceRow t))
    (by rewrite [Shape.rowMajor_val_two, Shape.rowMajor_val_three]; show b.val * 2100 + (100 + t.val) = (b.val * 1 + 0) * 2100 + (100 + t.val); omega)).trans ?_
  exact concatenate_pair_apply_right (t := S32x2100) (s₁ := S32x100) (s₂ := S32x2000) (1 : Fin 2) _ _ concatenates_S32x100_S32x2000_S32x2100_d1 (ix2 b (traceRow t)) rfl rfl (ix2 b t)
    (fun a ha => by match a with | ⟨0, _⟩ => rfl | ⟨1, _⟩ => exact absurd rfl ha)
    (by show t.val + 100 = 100 + t.val; omega)

/-! ## The blocks at point t, read at an index -/

/-- Grid point t as an example number. -/
abbrev exampleOf (t : Fin cfg0.N) : Fin 32 := ⟨t.val, lt_of_lt_of_eq t.isLt N_eq⟩

/-- What the body loads at point t. -/
abbrev featBlk (c : Dev nD) (t : Fin cfg0.N) : Vec Ideal S1x2100x768 .f32 := View.ld (iblk m c 0 t) r0_0
abbrev labelBlk (c : Dev nD) (t : Fin cfg0.N) : Vec Ideal S1x1x2100 .i32 := View.ld (iblk m c 1 t) r0_1
abbrev wTraceBlk (c : Dev nD) (t : Fin cfg0.N) : Vec Ideal S768x768 .bf16 := View.ld (iblk m c 2 t) r0_2
abbrev wVisionBlk (c : Dev nD) (t : Fin cfg0.N) : Vec Ideal S768x768 .bf16 := View.ld (iblk m c 2 t) r0_3
abbrev biasBlk (c : Dev nD) (t : Fin cfg0.N) : Vec Ideal S1x768 .f32 := View.ld (iblk m c 3 t) r0_4

/-- The loaded features are example t's rows. -/
theorem featBlk_apply (c : Dev nD) (t : Fin cfg0.N) (r : Fin 2100) (k : Fin 768) :
    featBlk m c t (ix3 (0 : Fin 1) r k) = featOf m c (ix3 (exampleOf t) r k) := by
  obtain ⟨e0, e1, e2, -⟩ := idx_facts t
  show V m c main_arg0 (((cfg0.win 0).blk t).view.emb (r0_0.emb (ix3 (0 : Fin 1) r k))) = _
  rw [V_main_arg0]
  refine congrArg (featOf m c) (funext fun a => Fin.ext ?_)
  match a with
  | ⟨0, _⟩ => show win0_0.index t (0 : Fin 3) * 1 + 1 * (0 + 1 * 0) = t.val; omega
  | ⟨1, _⟩ => show win0_0.index t (1 : Fin 3) * 2100 + 1 * (0 + 1 * r.val) = r.val; omega
  | ⟨2, _⟩ => show win0_0.index t (2 : Fin 3) * 768 + 1 * (0 + 1 * k.val) = k.val; omega

/-- The loaded labels are example t's padded labels. -/
theorem labelBlk_apply (c : Dev nD) (t : Fin cfg0.N) (r : Fin 2100) :
    labelBlk m c t (ix3 (0 : Fin 1) (0 : Fin 1) r) = (V m c main_v2 : S32x1x2100.Idx → BitVec 32) (ix3 (exampleOf t) (0 : Fin 1) r) := by
  obtain ⟨-, -, -, e0, e1, e2, -⟩ := idx_facts t
  show V m c main_v2 (((cfg0.win 1).blk t).view.emb (r0_1.emb (ix3 (0 : Fin 1) (0 : Fin 1) r))) = _
  refine congrArg (V m c main_v2 : S32x1x2100.Idx → BitVec 32) (funext fun a => Fin.ext ?_)
  match a with
  | ⟨0, _⟩ => show win0_1.index t (0 : Fin 3) * 1 + 1 * (0 + 1 * 0) = t.val; omega
  | ⟨1, _⟩ => show win0_1.index t (1 : Fin 3) * 1 + 1 * (0 + 1 * 0) = 0; omega
  | ⟨2, _⟩ => show win0_1.index t (2 : Fin 3) * 2100 + 1 * (0 + 1 * r.val) = r.val; omega

/-- The first loaded half of the weight is its columns 0..767. -/
theorem wTraceBlk_apply (c : Dev nD) (t : Fin cfg0.N) (h k : Fin 768) :
    wTraceBlk m c t (ix2 h k) = wgtOf m c (ix2 h (traceCol k)) := by
  obtain ⟨-, -, -, -, -, -, e0, e1, -⟩ := idx_facts t
  show V m c main_v3 (((cfg0.win 2).blk t).view.emb (r0_2.emb (ix2 h k))) = _
  refine (wgt_entry m c _).trans (congrArg (wgtOf m c) (funext fun a => Fin.ext ?_))
  match a with
  | ⟨0, _⟩ => show win0_2.index t (0 : Fin 2) * 768 + 1 * (0 + 1 * h.val) = h.val; omega
  | ⟨1, _⟩ => show win0_2.index t (1 : Fin 2) * 1536 + 1 * (0 + 1 * k.val) = k.val; omega

/-- The second loaded half of the weight is its columns 768..1535. -/
theorem wVisionBlk_apply (c : Dev nD) (t : Fin cfg0.N) (h k : Fin 768) :
    wVisionBlk m c t (ix2 h k) = wgtOf m c (ix2 h (visionCol k)) := by
  obtain ⟨-, -, -, -, -, -, e0, e1, -⟩ := idx_facts t
  show V m c main_v3 (((cfg0.win 2).blk t).view.emb (r0_3.emb (ix2 h k))) = _
  refine (wgt_entry m c _).trans (congrArg (wgtOf m c) (funext fun a => Fin.ext ?_))
  match a with
  | ⟨0, _⟩ => show win0_2.index t (0 : Fin 2) * 768 + 1 * (0 + 1 * h.val) = h.val; omega
  | ⟨1, _⟩ => show win0_2.index t (1 : Fin 2) * 1536 + 1 * (768 + 1 * k.val) = 768 + k.val; omega

/-- The loaded bias row is the bias. -/
theorem biasBlk_apply (c : Dev nD) (t : Fin cfg0.N) (h : Fin 768) :
    biasBlk m c t (ix2 (0 : Fin 1) h) = biasOf m c (ix1 h) := by
  obtain ⟨-, -, -, -, -, -, -, -, e0, e1, -⟩ := idx_facts t
  show V m c main_v4 (((cfg0.win 3).blk t).view.emb (r0_4.emb (ix2 (0 : Fin 1) h))) = _
  refine Eq.trans (congrArg (V m c main_v4 : S1x768.Idx → EReal) (funext fun a => Fin.ext ?_)) (bias_entry m c h)
  match a with
  | ⟨0, _⟩ => show win0_3.index t (0 : Fin 2) * 1 + 1 * (0 + 1 * 0) = 0; omega
  | ⟨1, _⟩ => show win0_3.index t (1 : Fin 2) * 768 + 1 * (0 + 1 * h.val) = h.val; omega

/-! ## What point t writes back -/

/-- The step's value from its loaded blocks is the pooled function at example t: the one-hot sums over the 2100
    padded rows are sums over the trace tokens carrying the label. -/
theorem block_eq_pooled (c : Dev nD) (t : Fin cfg0.N) (s : Fin 100) (h : Fin 768) :
    blockValue (featBlk m c t) (fun r => labelBlk m c t (ix3 (0 : Fin 1) (0 : Fin 1) r)) (wTraceBlk m c t) (wVisionBlk m c t) (biasBlk m c t) s h
      = pooledAt (featOf m c) (maskOf m c) (wgtOf m c) (biasOf m c) (exampleOf t) s h := by
  have hpad : ∀ r : Fin 2100, r.val < 100 → (fun r => labelBlk m c t (ix3 (0 : Fin 1) (0 : Fin 1) r)) r = 0#32 :=
    fun r hr => (labelBlk_apply m c t r).trans (labels_pad m c (exampleOf t) r hr)
  have htr : ∀ r : Fin 2000, (fun r => labelBlk m c t (ix3 (0 : Fin 1) (0 : Fin 1) r)) (traceRow r) = (fun r => maskOf m c (ix2 (exampleOf t) r)) r :=
    fun r => (labelBlk_apply m c t (traceRow r)).trans (labels_trace m c (exampleOf t) r)
  have hsum : ∀ k : Fin 768, (∑ r : Fin 2100, hot (fun r => labelBlk m c t (ix3 (0 : Fin 1) (0 : Fin 1) r)) s r * featBlk m c t (ix3 (0 : Fin 1) r k))
      = segSum (featOf m c) (maskOf m c) (exampleOf t) s k := fun k => by
    rw [hot_sum (fun r => maskOf m c (ix2 (exampleOf t) r)) _ hpad htr (fun r => featBlk m c t (ix3 (0 : Fin 1) r k)) s]
    unfold segSum members
    exact Finset.sum_congr rfl fun r _ => featBlk_apply m c t (traceRow r) k
  have hcnt : (∑ r : Fin 2100, hot (fun r => labelBlk m c t (ix3 (0 : Fin 1) (0 : Fin 1) r)) s r) = segCount (maskOf m c) (exampleOf t) s := by
    rw [hot_count (fun r => maskOf m c (ix2 (exampleOf t) r)) _ hpad htr s]
    rfl
  have hvis : ∀ k : Fin 768, Ideal.div (∑ r : Fin 100, featBlk m c t (ix3 (0 : Fin 1) (visionRow r) k)) (Ideal.ofBits .f32 0x42C80000#32)
      = visionMean (featOf m c) (exampleOf t) k := fun k => by
    unfold visionMean
    exact congrArg (Ideal.div · _) (Finset.sum_congr rfl fun r _ => featBlk_apply m c t (visionRow r) k)
  unfold blockValue pooledAt
  rw [hcnt, biasBlk_apply]
  refine congrArg (· + _) (congrArg₂ (· + ·) (Finset.sum_congr rfl fun k _ => ?_) (Finset.sum_congr rfl fun k _ => ?_))
  · rw [hsum k, wTraceBlk_apply]
  · rw [hvis k, wVisionBlk_apply]

/-- WHAT POINT t WRITES BACK is block t of the pooled function of the argument arrays. -/
theorem flushed_eq (c : Dev nD) (t : Fin cfg0.N) :
    (dats m 0 c).flushed 4 t
      = ((cfg0.win 4).blk t).view.read (Elt Ideal) (pooled (featOf m c) (maskOf m c) (wgtOf m c) (biasOf m c)) := by
  obtain ⟨-, -, -, -, -, -, -, -, -, -, e0, e1, e2⟩ := idx_facts t
  rw [Value.flushed4]
  unfold out0_4
  funext y
  have hy0 : (y 0).val < 1 := (y 0).isLt
  have hy1 : (y 1).val < 100 := (y 1).isLt
  have hy2 : (y 2).val < 768 := (y 2).isLt
  show View.canon ([⟨r0_5, k0_pay1 (k0_pay2 (featBlk m c t) (labelBlk m c t) (wTraceBlk m c t) (wVisionBlk m c t) (biasBlk m c t))⟩] : List (View.Piece (Elt Ideal) S1x100x768 .f32)) y
    = pooled (featOf m c) (maskOf m c) (wgtOf m c) (biasOf m c) (((cfg0.win 4).blk t).view.emb y)
  refine (Value.canon4_eq (F := Ideal) (featBlk m c t) (labelBlk m c t) (wTraceBlk m c t) (wVisionBlk m c t) (biasBlk m c t) y).trans ?_
  show k0_pay2 (F := Ideal) (featBlk m c t) (labelBlk m c t) (wTraceBlk m c t) (wVisionBlk m c t) (biasBlk m c t) (Value.ix4_0 y) = _
  rw [show Value.ix4_0 y = ix2 (⟨(y 1).val, hy1⟩ : Fin 100) (⟨(y 2).val, hy2⟩ : Fin 768) from
    funext fun a => Fin.ext (by match a with | ⟨0, _⟩ => rfl | ⟨1, _⟩ => rfl)]
  rw [body_apply]
  refine (block_eq_pooled m c t _ _).trans ?_
  unfold pooled
  congr 1 <;> apply Fin.ext
  · show t.val = win0_4.index t (0 : Fin 3) * 1 + 1 * (y 0).val; omega
  · show (y 1).val = win0_4.index t (1 : Fin 3) * 100 + 1 * (y 1).val; omega
  · show (y 2).val = win0_4.index t (2 : Fin 3) * 768 + 1 * (y 2).val; omega

/-- Every index of the result array is in the block of the point that is its example. -/
theorem cover (i : S32x100x768.Idx) : ∃ t : Fin cfg0.N, (cfg0.win 4).flush t = true ∧ i ∈ ((cfg0.win 4).blk t).view.set := by
  have h0 : (i 0).val < 32 := (i 0).isLt
  have h1 : (i 1).val < 100 := (i 1).isLt
  have h2 : (i 2).val < 768 := (i 2).isLt
  have hN : (i 0).val < cfg0.N := lt_of_lt_of_eq h0 N_eq.symm
  obtain ⟨-, -, -, -, -, -, -, -, -, -, e0, e1, e2⟩ := idx_facts ⟨(i 0).val, hN⟩
  have e0' : win0_4.index ⟨(i 0).val, hN⟩ (0 : Fin 3) = (i 0).val := e0
  refine ⟨⟨(i 0).val, hN⟩, flush0_4 _, ?_⟩
  show i ∈ ((View.whole main_v5).slice (win0_4.rect ⟨(i 0).val, hN⟩)).set
  rw [View.set_slice_whole, Rect.mem_set_unit]
  intro a
  match a with
  | ⟨0, _⟩ => show win0_4.index ⟨(i 0).val, hN⟩ (0 : Fin 3) * 1 ≤ (i 0).val ∧ (i 0).val < win0_4.index ⟨(i 0).val, hN⟩ (0 : Fin 3) * 1 + 1; omega
  | ⟨1, _⟩ => show win0_4.index ⟨(i 0).val, hN⟩ (1 : Fin 3) * 100 ≤ (i 1).val ∧ (i 1).val < win0_4.index ⟨(i 0).val, hN⟩ (1 : Fin 3) * 100 + 100; omega
  | ⟨2, _⟩ => show win0_4.index ⟨(i 0).val, hN⟩ (2 : Fin 3) * 768 ≤ (i 2).val ∧ (i 2).val < win0_4.index ⟨(i 0).val, hN⟩ (2 : Fin 3) * 768 + 768; omega

/-- THE RESULT ARRAY after the run is the pooled function of the argument arrays. -/
theorem final (c : Dev nD) :
    (dats m 0 c).arrAt 4 cfg0.N = pooled (featOf m c) (maskOf m c) (wgtOf m c) (biasOf m c) :=
  (dats m 0 c).arrAt_eq_of_cover 4 (pooled (featOf m c) (maskOf m c) (wgtOf m c) (biasOf m c)) (fun t _ => flushed_eq m c t) cover

/-- The kernel's run: the result array at the pooled function, the arguments unchanged. -/
theorem run : θ_run defs (onTc (τ := τ) (main (F := Ideal))) ⟨m, fun _ => 0, ρ⟩ fun r => ∀ c : Dev nD,
      r.2.mem ((c : Thread nD τ).loc main_v5) = pooled (featOf m c) (maskOf m c) (wgtOf m c) (biasOf m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.SegPool.Kernel

end
-- ==== Proof.ScatterRead.lean ====
/-
  Where an update of the two accumulating scatters lands.
-/
import Idealize.ShloMosaic.PureOps.Ideal
import Idealize.ShloMosaic.Lib.ValueIdx

noncomputable section

namespace Cert.SegPool

open Idealize.ShloMosaic Idealize.ShloMosaic.ValueIdx

/-- Reading an index at two equal axes gives the same coordinate value. -/
private theorem coord_val_congr {s : Shape} (j : s.Idx) {a b : Fin s.rank} (h : a = b) :
    (j a).val = (j b).val := by
  subst h; rfl

/-! ### The row scatter: operand [3200, 768], start indices [64000, 1], updates [64000, 768] -/

private abbrev opR : Shape := ⟨2, ![3200, 768]⟩
private abbrev siS : Shape := ⟨2, ![64000, 1]⟩
private abbrev upR : Shape := ⟨2, ![64000, 768]⟩

private abbrev dR (wf : ScatterDims.WF opR siS upR [1] [0] [0] 1) : ScatterDims opR siS upR :=
  ⟨[1], [0], [0], 1, wf⟩

/-- On the scattered axis the start is the update's start index, read signed. -/
private theorem rows_start0 {w : Nat} (wf : ScatterDims.WF opR siS upR [1] [0] [0] 1)
    (idx : IVec siS w) (u : upR.Idx) :
    (dR wf).start u idx 0 = (idx (ix2 (u 0) (0 : Fin 1))).toInt := by
  have h0 : (0 : Fin opR.rank) ∈ (dR wf).scatterDimsToOperandDims :=
    (by decide : (0 : Fin 2) ∈ [(0 : Fin 2)])
  unfold ScatterDims.start
  rw [dif_pos h0]
  refine congrArg (fun j => (idx j).toInt) (funext fun b => Fin.ext ?_)
  match b with
  | ⟨0, hb⟩ =>
    have hne : ¬ ((⟨0, hb⟩ : Fin siS.rank).val = (dR wf).indexVectorDim) := (by decide : ¬ (0 = 1))
    unfold ScatterDims.siIdx
    rw [dif_neg hne]
    unfold ScatterDims.siCoord
    show (u _).val = (u 0).val
    exact coord_val_congr u rfl
  | ⟨1, hb⟩ =>
    have he : (⟨1, hb⟩ : Fin siS.rank).val = (dR wf).indexVectorDim := rfl
    unfold ScatterDims.siIdx
    rw [dif_pos he]
    rfl

/-- The window axis is not scattered: its start is 0. -/
private theorem rows_start1 {w : Nat} (wf : ScatterDims.WF opR siS upR [1] [0] [0] 1)
    (idx : IVec siS w) (u : upR.Idx) :
    (dR wf).start u idx 1 = 0 := by
  have h1 : (1 : Fin opR.rank) ∉ (dR wf).scatterDimsToOperandDims :=
    (by decide : (1 : Fin 2) ∉ [(0 : Fin 2)])
  unfold ScatterDims.start
  rw [dif_neg h1]

/-- The scattered axis is inserted: its window coordinate is 0. -/
private theorem rows_window0 (wf : ScatterDims.WF opR siS upR [1] [0] [0] 1) (u : upR.Idx) :
    (dR wf).window u 0 = 0 := by
  have h0 : (0 : Fin opR.rank) ∉ (dR wf).sKept :=
    (by decide : (0 : Fin 2) ∉ opR.kept [(0 : Fin 2)])
  unfold ScatterDims.window
  rw [dif_neg h0]

/-- The kept axis takes the update's window coordinate. -/
private theorem rows_window1 (wf : ScatterDims.WF opR siS upR [1] [0] [0] 1) (u : upR.Idx) :
    (dR wf).window u 1 = (u 1).val := by
  have h1 : (1 : Fin opR.rank) ∈ (dR wf).sKept :=
    (by decide : (1 : Fin 2) ∈ opR.kept [(0 : Fin 2)])
  unfold ScatterDims.window
  rw [dif_pos h1]
  exact coord_val_congr u rfl

/-- Rows scattered into a matrix: update (n, c) lands at (i, c') exactly when the n-th start index, read signed, is
    row i and c = c'. -/
theorem resultIdx_rows {w : Nat}
    (wf : ScatterDims.WF (⟨2, ![3200, 768]⟩ : Shape) (⟨2, ![64000, 1]⟩ : Shape) (⟨2, ![64000, 768]⟩ : Shape) [1] [0] [0] 1)
    (idx : IVec (⟨2, ![64000, 1]⟩ : Shape) w) (u : (⟨2, ![64000, 768]⟩ : Shape).Idx) (i : (⟨2, ![3200, 768]⟩ : Shape).Idx) :
    (⟨[1], [0], [0], 1, wf⟩ : ScatterDims (⟨2, ![3200, 768]⟩ : Shape) (⟨2, ![64000, 1]⟩ : Shape) (⟨2, ![64000, 768]⟩ : Shape)).resultIdx? u idx = some i
      ↔ (idx (ix2 (u 0) (0 : Fin 1))).toInt = ((i 0).val : ℤ) ∧ (u 1).val = (i 1).val := by
  have hs0 := rows_start0 wf idx u
  have hs1 := rows_start1 wf idx u
  have hw0 := rows_window0 wf u
  have hw1 := rows_window1 wf u
  have hi0 := idx2_lt0 i
  have hi1 := idx2_lt1 i
  have hu1 := idx2_lt1 u
  have hz0 : opR.size 0 = 3200 := rfl
  have hz1 : opR.size 1 = 768 := rfl
  unfold ScatterDims.resultIdx?
  constructor
  · intro h
    split at h
    · rename_i hr
      have hfun := Option.some.inj h
      have e0 := congrArg (fun f : opR.Idx => (f 0).val) hfun
      have e1 := congrArg (fun f : opR.Idx => (f 1).val) hfun
      have r0 := hr 0
      have r1 := hr 1
      simp only at e0 e1
      rw [hs0, hw0] at e0 r0
      rw [hs1, hw1] at e1 r1
      constructor <;> omega
    · exact absurd h (by simp)
  · rintro ⟨e0, e1⟩
    have hr : ∀ a, 0 ≤ (dR wf).start u idx a + (dR wf).window u a ∧
        (dR wf).start u idx a + (dR wf).window u a < opR.size a := by
      rw [Fin.forall_fin_two, hs0, hw0, hs1, hw1]
      constructor <;> constructor <;> omega
    rw [dif_pos hr]
    refine congrArg some (funext fun a => Fin.ext ?_)
    match a with
    | ⟨0, _⟩ =>
      show ((dR wf).start u idx 0 + (dR wf).window u 0).toNat = (i 0).val
      rw [hs0, hw0]; omega
    | ⟨1, _⟩ =>
      show ((dR wf).start u idx 1 + (dR wf).window u 1).toNat = (i 1).val
      rw [hs1, hw1]; omega

/-! ### The scalar scatter: operand [3200], start indices [64000, 1], updates [64000] -/

private abbrev opV : Shape := ⟨1, ![3200]⟩
private abbrev upV : Shape := ⟨1, ![64000]⟩

private abbrev dV (wf : ScatterDims.WF opV siS upV [] [0] [0] 1) : ScatterDims opV siS upV :=
  ⟨[], [0], [0], 1, wf⟩

/-- On the one (scattered) axis the start is the update's start index, read signed. -/
private theorem vec_start0 {w : Nat} (wf : ScatterDims.WF opV siS upV [] [0] [0] 1)
    (idx : IVec siS w) (u : upV.Idx) :
    (dV wf).start u idx 0 = (idx (ix2 (u 0) (0 : Fin 1))).toInt := by
  have h0 : (0 : Fin opV.rank) ∈ (dV wf).scatterDimsToOperandDims :=
    (by decide : (0 : Fin 1) ∈ [(0 : Fin 1)])
  unfold ScatterDims.start
  rw [dif_pos h0]
  refine congrArg (fun j => (idx j).toInt) (funext fun b => Fin.ext ?_)
  match b with
  | ⟨0, hb⟩ =>
    have hne : ¬ ((⟨0, hb⟩ : Fin siS.rank).val = (dV wf).indexVectorDim) := (by decide : ¬ (0 = 1))
    unfold ScatterDims.siIdx
    rw [dif_neg hne]
    unfold ScatterDims.siCoord
    show (u _).val = (u 0).val
    exact coord_val_congr u rfl
  | ⟨1, hb⟩ =>
    have he : (⟨1, hb⟩ : Fin siS.rank).val = (dV wf).indexVectorDim := rfl
    unfold ScatterDims.siIdx
    rw [dif_pos he]
    rfl

/-- The one axis is inserted: its window coordinate is 0. -/
private theorem vec_window0 (wf : ScatterDims.WF opV siS upV [] [0] [0] 1) (u : upV.Idx) :
    (dV wf).window u 0 = 0 := by
  have h0 : (0 : Fin opV.rank) ∉ (dV wf).sKept :=
    (by decide : (0 : Fin 1) ∉ opV.kept [(0 : Fin 1)])
  unfold ScatterDims.window
  rw [dif_neg h0]

/-- Scalars scattered into a vector: update n lands at i exactly when the n-th start index, read signed, is i. -/
theorem resultIdx_vec {w : Nat}
    (wf : ScatterDims.WF (⟨1, ![3200]⟩ : Shape) (⟨2, ![64000, 1]⟩ : Shape) (⟨1, ![64000]⟩ : Shape) [] [0] [0] 1)
    (idx : IVec (⟨2, ![64000, 1]⟩ : Shape) w) (u : (⟨1, ![64000]⟩ : Shape).Idx) (i : (⟨1, ![3200]⟩ : Shape).Idx) :
    (⟨[], [0], [0], 1, wf⟩ : ScatterDims (⟨1, ![3200]⟩ : Shape) (⟨2, ![64000, 1]⟩ : Shape) (⟨1, ![64000]⟩ : Shape)).resultIdx? u idx = some i
      ↔ (idx (ix2 (u 0) (0 : Fin 1))).toInt = ((i 0).val : ℤ) := by
  have hs0 := vec_start0 wf idx u
  have hw0 := vec_window0 wf u
  have hi0 : (i 0).val < 3200 := (i 0).isLt
  have hz0 : opV.size 0 = 3200 := rfl
  unfold ScatterDims.resultIdx?
  constructor
  · intro h
    split at h
    · rename_i hr
      have hfun := Option.some.inj h
      have e0 := congrArg (fun f : opV.Idx => (f 0).val) hfun
      have r0 := hr 0
      simp only at e0
      rw [hs0, hw0] at e0 r0
      omega
    · exact absurd h (by simp)
  · intro e0
    have hr : ∀ a, 0 ≤ (dV wf).start u idx a + (dV wf).window u a ∧
        (dV wf).start u idx a + (dV wf).window u a < opV.size a := by
      rw [Fin.forall_fin_one, hs0, hw0]
      constructor <;> omega
    rw [dif_pos hr]
    refine congrArg some (funext fun a => Fin.ext ?_)
    match a with
    | ⟨0, _⟩ =>
      show ((dV wf).start u idx 0 + (dV wf).window u 0).toNat = (i 0).val
      rw [hs0, hw0]; omega

end Cert.SegPool

end
-- ==== Proof.RefScatter.lean ====
/-
  The reference's two accumulating scatters read at a row.
-/
import proofs.«429078_j13520557048022_2_alg».proof.Proof.Gen.ReferenceIdeal.Read
import proofs.«429078_j13520557048022_2_alg».proof.Proof.Spec
import proofs.«429078_j13520557048022_2_alg».proof.Proof.SumLemmas
import proofs.«429078_j13520557048022_2_alg».proof.Proof.ScatterRead
import Idealize.ShloMosaic.PureOps.Ideal.Laws
import Idealize.ShloMosaic.Lib.IdealHost
import Idealize.ShloMosaic.Lib.ValueIdx

noncomputable section

namespace Cert.SegPool

open Idealize.ShloMosaic Idealize.ShloMosaic.ValueIdx Cert.ReferenceIdeal Cert.ReferenceIdeal.Read

/-- Row b * 100 + s of the flattened [3200, …] arrays. -/
abbrev segRow (b : Fin 32) (s : Fin 100) : Fin 3200 := ⟨b.val * 100 + s.val, by omega⟩

/-- Flattened token n of the [64000] arrays is position n % 2000 of example n / 2000. -/
private theorem flat_idx (n : Fin 64000) :
    idx_main_v13 (idx_main_v16 (ix2 n (0 : Fin 1))) = ix2 (tokExample n) (tokPos n) := by
  funext a
  match a with
  | ⟨0, _⟩ => rfl
  | ⟨1, _⟩ => rfl

/-- The scatter indices are the global segment ids. -/
theorem ids_read [Cert.ReferenceIdeal.Facts] (x1 : SMask.Idx → BitVec 32) (n : Fin 64000) :
    val_main_v16 (F := Ideal) x1 (ix2 n (0 : Fin 1)) = globalId x1 n := by
  rw [val_main_v16_apply, val_main_v13_apply, val_main_v12_apply, val_main_v11_apply, val_main_v8_apply,
    val_main_v6_apply, val_main_v7_apply, val_main_v10_apply, val_main_v9_apply, val_main_v5_apply,
    val_main_c_apply, val_main_c_1_apply, flat_idx]
  rfl

/-- The second scatter's indices are the same array. -/
private theorem ids_read' [Cert.ReferenceIdeal.Facts] (x1 : SMask.Idx → BitVec 32) (n : Fin 64000) :
    val_main_v20 (F := Ideal) x1 (ix2 n (0 : Fin 1)) = globalId x1 n :=
  ids_read x1 n

/-- The flattened token b * 2000 + t lies in example b at position t. -/
private theorem tokExample_flatTok (b : Fin 32) (t : Fin 2000) : tokExample (flatTok b t) = b :=
  Fin.ext (by have := b.isLt; have := t.isLt; show (b.val * 2000 + t.val) / 2000 = b.val; omega)

private theorem tokPos_flatTok (b : Fin 32) (t : Fin 2000) : tokPos (flatTok b t) = t :=
  Fin.ext (by have := b.isLt; have := t.isLt; show (b.val * 2000 + t.val) % 2000 = t.val; omega)

/-- Element (n, k) of the flattened trace features is feature k of trace token n % 2000 of example n / 2000. -/
private theorem feat_read (x0 : SFeat.Idx → EReal) (n : Fin 64000) (k : Fin 768) :
    val_main_v14 (F := Ideal) x0 (ix2 n k) = x0 (ix3 (tokExample n) (traceRow (tokPos n)) k) := by
  rw [val_main_v14_apply, val_main_v4_apply]
  congr 1
  have hn := n.isLt
  have hk := k.isLt
  funext a
  match a with
  | ⟨0, _⟩ => exact Fin.ext (by show (n.val * 768 + k.val) / 1536000 = n.val / 2000; omega)
  | ⟨1, _⟩ => exact Fin.ext (by show 100 + (n.val * 768 + k.val) / 768 % 2000 = 100 + n.val % 2000; omega)
  | ⟨2, _⟩ => exact Fin.ext (by show (n.val * 768 + k.val) % 768 = k.val; omega)

/-- The scattered feature sums at row (b, s), column k: the segment's sum. -/
theorem sums_read [Cert.ReferenceIdeal.Facts] (x0 : SFeat.Idx → EReal) (x1 : SMask.Idx → BitVec 32)
    (hr : ∀ i, 1 ≤ (x1 i).toNat ∧ (x1 i).toNat ≤ 100) (b : Fin 32) (s : Fin 100) (k : Fin 768) :
    val_main_v17 (F := Ideal) x0 x1 (ix2 (segRow b s) k) = segSum x0 x1 b s k := by
  unfold val_main_v17
  simp only [Host.scatterAdd, Ideal.hostScatterAdd_def, Ideal.hostScatterAdd]
  -- the initial array is the zero constant
  rw [val_main_v15_apply, val_main_cst_2_apply, Ideal.ofBits_def, Ideal.ofBits_zero_f32, zero_add]
  -- an update element (n, c) lands on (row, k) exactly when token n has that global id and c = k
  have hfilter : ∀ u : S64000x768.Idx,
      (scatter_S3200x768_S64000x1_S64000x768_1_0_0_1.resultIdx? u (val_main_v16 (F := Ideal) x1)
          = some (ix2 (segRow b s) k))
        ↔ ((globalId x1 (u 0)).toInt = ((b.val * 100 + s.val : ℕ) : ℤ) ∧ (u 1).val = k.val) := by
    intro u
    have hid : (val_main_v16 (F := Ideal) x1 (ix2 (u 0) (0 : Fin 1))).toInt = (globalId x1 (u 0)).toInt :=
      congrArg BitVec.toInt (ids_read x1 (u 0))
    unfold scatter_S3200x768_S64000x1_S64000x768_1_0_0_1
    refine (resultIdx_rows _ _ u _).trans ⟨?_, ?_⟩
    · rintro ⟨h1, h2⟩
      exact ⟨hid.symm.trans h1, h2⟩
    · rintro ⟨h1, h2⟩
      exact ⟨hid.trans h1, h2⟩
  rw [Finset.filter_congr (fun u _ => hfilter u)]
  -- an update index whose column is k is (its row, k)
  have hback : ∀ u : S64000x768.Idx, (u 1).val = k.val → (ix2 (u 0) k : S64000x768.Idx) = u := by
    intro u hu
    have h1 : u 1 = k := Fin.ext hu
    funext a
    match a with
    | ⟨0, _⟩ => rfl
    | ⟨1, _⟩ => exact h1.symm
  -- so the sum runs over the tokens n with that global id, at column k
  have hcol : ∑ u ∈ Finset.univ.filter (fun u : S64000x768.Idx =>
        (globalId x1 (u 0)).toInt = ((b.val * 100 + s.val : ℕ) : ℤ) ∧ (u 1).val = k.val), val_main_v14 (F := Ideal) x0 u
      = ∑ n ∈ Finset.univ.filter (fun n : Fin 64000 => (globalId x1 n).toInt = ((b.val * 100 + s.val : ℕ) : ℤ)),
          val_main_v14 (F := Ideal) x0 (ix2 n k) := by
    refine Finset.sum_nbij' (fun u : S64000x768.Idx => (u 0 : Fin 64000)) (fun n => (ix2 n k : S64000x768.Idx))
      ?_ ?_ ?_ ?_ ?_
    · intro u hu
      exact Finset.mem_filter.mpr ⟨Finset.mem_univ _, (Finset.mem_filter.mp hu).2.1⟩
    · intro n hn
      exact Finset.mem_filter.mpr ⟨Finset.mem_univ _, (Finset.mem_filter.mp hn).2, rfl⟩
    · intro u hu
      exact hback u (Finset.mem_filter.mp hu).2.2
    · intro n _; rfl
    · intro u hu
      exact congrArg (val_main_v14 (F := Ideal) x0) (hback u (Finset.mem_filter.mp hu).2.2).symm
  rw [hcol, Finset.sum_congr rfl (fun n _ => feat_read x0 n k),
    scatter_sum x1 hr (fun n => x0 (ix3 (tokExample n) (traceRow (tokPos n)) k)) b s]
  unfold segSum
  refine Finset.sum_congr rfl (fun t _ => ?_)
  rw [tokExample_flatTok, tokPos_flatTok]

/-- The scattered counts, spread along the row, at row (b, s): the segment's size. -/
theorem counts_read [Cert.ReferenceIdeal.Facts] (x1 : SMask.Idx → BitVec 32)
    (hr : ∀ i, 1 ≤ (x1 i).toNat ∧ (x1 i).toNat ≤ 100) (b : Fin 32) (s : Fin 100) (k : Fin 768) :
    val_main_v23 (F := Ideal) x1 (ix2 (segRow b s) k) = segCount x1 b s := by
  rw [val_main_v23_apply, val_main_v22_apply]
  unfold val_main_v21
  simp only [Host.scatterAdd, Ideal.hostScatterAdd_def, Ideal.hostScatterAdd]
  -- the initial array is the zero constant
  rw [val_main_v19_apply, val_main_cst_4_apply, Ideal.ofBits_def, Ideal.ofBits_zero_f32, zero_add]
  -- update element n lands on the row exactly when token n has that global id
  have hfilter : ∀ u : S64000.Idx,
      (scatter_S3200_S64000x1_S64000_n_0_0_1.resultIdx? u (val_main_v20 (F := Ideal) x1)
          = some (idx_main_v22 (idx_main_v23 (ix2 (segRow b s) k))))
        ↔ (globalId x1 (u 0)).toInt = ((b.val * 100 + s.val : ℕ) : ℤ) := by
    intro u
    have hid : (val_main_v20 (F := Ideal) x1 (ix2 (u 0) (0 : Fin 1))).toInt = (globalId x1 (u 0)).toInt :=
      congrArg BitVec.toInt (ids_read' x1 (u 0))
    unfold scatter_S3200_S64000x1_S64000_n_0_0_1
    refine (resultIdx_vec _ _ u _).trans ⟨?_, ?_⟩
    · intro h1
      exact hid.symm.trans h1
    · intro h1
      exact hid.trans h1
  rw [Finset.filter_congr (fun u _ => hfilter u)]
  -- every update is the constant 1
  have hone : ∀ u : S64000.Idx, val_main_v18 (F := Ideal) u = 1 := by
    intro u
    rw [val_main_v18_apply, val_main_cst_3_apply, Ideal.ofBits_def, Ideal.ofBits_one_f32]
  rw [Finset.sum_congr rfl (fun u _ => hone u)]
  have hflat : ∑ _u ∈ Finset.univ.filter (fun u : S64000.Idx =>
        (globalId x1 (u 0)).toInt = ((b.val * 100 + s.val : ℕ) : ℤ)), (1 : EReal)
      = ∑ _n ∈ Finset.univ.filter (fun n : Fin 64000 => (globalId x1 n).toInt = ((b.val * 100 + s.val : ℕ) : ℤ)),
          (1 : EReal) := by
    refine Finset.sum_nbij' (fun u : S64000.Idx => (u 0 : Fin 64000)) (fun n => (ix1 n : S64000.Idx)) ?_ ?_ ?_ ?_ ?_
    · intro u hu
      exact Finset.mem_filter.mpr ⟨Finset.mem_univ _, (Finset.mem_filter.mp hu).2⟩
    · intro n hn
      exact Finset.mem_filter.mpr ⟨Finset.mem_univ _, (Finset.mem_filter.mp hn).2⟩
    · intro u _; exact (eq_ix1 u).symm
    · intro n _; rfl
    · intro u _; rfl
  rw [hflat, scatter_sum x1 hr (fun _ => (1 : EReal)) b s]
  rfl

end Cert.SegPool

end
-- ==== Proof.RefTop.lean ====
/-
  The reference's result read at an index.

  The result at (b, s, h) is row b * 100 + s, column h of the flattened product plus the bias at h. The product's row is
  the merged row (the trace half: segment sum over segment size; the vision half: the mean of the vision tokens) against
  the transposed weight, a sum over 1536 columns that splits into the two halves of 768.
-/
import proofs.«429078_j13520557048022_2_alg».proof.Proof.Gen.ReferenceIdeal.Read
import proofs.«429078_j13520557048022_2_alg».proof.Proof.Spec
import proofs.«429078_j13520557048022_2_alg».proof.Proof.SumLemmas
import proofs.«429078_j13520557048022_2_alg».proof.Proof.RefScatter
import Idealize.ShloMosaic.PureOps.Ideal.Laws
import Idealize.ShloMosaic.Lib.IdealHost
import Idealize.ShloMosaic.Lib.ValueIdx
import Idealize.ShloMosaic.Lib.Pipeline.Value

noncomputable section

namespace Cert.SegPool

open Idealize.ShloMosaic Idealize.ShloMosaic.ValueIdx Cert.ReferenceIdeal Cert.ReferenceIdeal.Read

/-- Row b * 100 + s, column h of the flattened result is the entry (b, s, h):
    ((b * 100 + s) * 768 + h) / 768 = b * 100 + s and the remainder is h. -/
private theorem idx33_eq (b : Fin 32) (s : Fin 100) (h : Fin 768) :
    idx_main_v33 (ix3 b s h) = ix2 (segRow b s) h := by
  funext a
  have hb := b.isLt
  have hs := s.isLt
  have hh := h.isLt
  match a with
  | ⟨0, _⟩ => exact Fin.ext (by show ((b.val * 100 + s.val) * 768 + h.val) / 768 = b.val * 100 + s.val; omega)
  | ⟨1, _⟩ => exact Fin.ext (by show ((b.val * 100 + s.val) * 768 + h.val) % 768 = h.val; omega)

/-- Row b * 100 + s, column k of the flattened vision means is the entry (b, s, k) of the spread means. -/
private theorem idx26_eq (b : Fin 32) (s : Fin 100) (k : Fin 768) :
    idx_main_v26 (ix2 (segRow b s) k) = ix3 b s k := by
  funext a
  have hb := b.isLt
  have hs := s.isLt
  have hk := k.isLt
  match a with
  | ⟨0, _⟩ => exact Fin.ext (by show ((b.val * 100 + s.val) * 768 + k.val) / 76800 = b.val; omega)
  | ⟨1, _⟩ => exact Fin.ext (by show ((b.val * 100 + s.val) * 768 + k.val) / 768 % 100 = s.val; omega)
  | ⟨2, _⟩ => exact Fin.ext (by show ((b.val * 100 + s.val) * 768 + k.val) % 768 = k.val; omega)

/-- The vision half of the merged row (b, s) at column k: the mean of the 100 vision tokens of example b. -/
private theorem vision_read [Cert.ReferenceIdeal.Facts] (x0 : SFeat.Idx → EReal) (b : Fin 32) (s : Fin 100) (k : Fin 768) :
    val_main_v26 (F := Ideal) x0 (ix2 (segRow b s) k) = visionMean x0 b k := by
  rw [val_main_v26_apply, idx26_eq, val_main_v25_apply, val_main_v3_apply, Ideal.hostDivf_def, val_main_v1_apply,
    val_main_v2_apply, val_main_cst_0_apply, val_main_cst_apply, Ideal.ofBits_def, Ideal.ofBits_def,
    Ideal.ofBits_zero_f32, zero_add]
  unfold visionMean
  congr 1
  refine Finset.sum_congr rfl fun r _ => ?_
  rw [val_main_v0_apply]
  refine congrArg x0 (funext fun a => ?_)
  match a with
  | ⟨0, _⟩ => rfl
  | ⟨1, _⟩ => rfl
  | ⟨2, _⟩ => rfl

/-- The trace half of the merged row (b, s) at column k: the segment's sum over its size. -/
private theorem trace_read [Cert.ReferenceIdeal.Facts] (x0 : SFeat.Idx → EReal) (x1 : SMask.Idx → BitVec 32)
    (hr : ∀ i, 1 ≤ (x1 i).toNat ∧ (x1 i).toNat ≤ 100) (b : Fin 32) (s : Fin 100) (k : Fin 768) :
    val_main_v24 (F := Ideal) x0 x1 (ix2 (segRow b s) k) = Ideal.div (segSum x0 x1 b s k) (segCount x1 b s) := by
  rw [val_main_v24_apply, Ideal.hostDivf_def, sums_read x0 x1 hr b s k, counts_read x1 hr b s k]

/-- The merged row at a column of its first half reads the trace half there. -/
private theorem concat_left [Cert.ReferenceIdeal.Facts] (x0 : SFeat.Idx → EReal) (x1 : SMask.Idx → BitVec 32)
    (r : Fin 3200) (k : Fin 768) :
    val_main_v27 (F := Ideal) x0 x1 (ix2 r (traceCol k)) = val_main_v24 (F := Ideal) x0 x1 (ix2 r k) := by
  unfold val_main_v27
  exact concatenate_pair_apply_left (t := S3200x1536) (s₁ := S3200x768) (s₂ := S3200x768) (1 : Fin 2) _ _ _
    (ix2 r (traceCol k)) rfl (ix2 r k) (fun a => by match a with | ⟨0, _⟩ => rfl | ⟨1, _⟩ => rfl)

/-- The merged row at a column of its second half reads the vision half at the column less 768. -/
private theorem concat_right [Cert.ReferenceIdeal.Facts] (x0 : SFeat.Idx → EReal) (x1 : SMask.Idx → BitVec 32)
    (r : Fin 3200) (k : Fin 768) :
    val_main_v27 (F := Ideal) x0 x1 (ix2 r (visionCol k)) = val_main_v26 (F := Ideal) x0 (ix2 r k) := by
  unfold val_main_v27
  exact concatenate_pair_apply_right (t := S3200x1536) (s₁ := S3200x768) (s₂ := S3200x768) (1 : Fin 2) _ _ _
    (ix2 r (visionCol k)) rfl rfl (ix2 r k)
    (fun a => by match a with | ⟨0, _⟩ => (intro _; rfl) | ⟨1, _⟩ => (intro hne; exact absurd rfl hne))
    (by show k.val + 768 = 768 + k.val; omega)

/-- The left operand of the merge product for the entry (r, h), at contraction position c, is the merged row r at column c. -/
private theorem lidx29_eq (r : Fin 3200) (h : Fin 768) (c : Fin 1536) : lidx_main_v29 (ix2 r h) c = ix2 r c := by
  funext a
  match a with
  | ⟨0, _⟩ => rfl
  | ⟨1, _⟩ => rfl

/-- With every label in 1..100 the reference's result at (b, s, h) is the pooled function there. -/
theorem ref_read [Cert.ReferenceIdeal.Facts] (x0 : SFeat.Idx → EReal) (x1 : SMask.Idx → BitVec 32) (x2 : SWgt.Idx → EReal) (x3 : SBias.Idx → EReal)
    (hr : ∀ i, 1 ≤ (x1 i).toNat ∧ (x1 i).toNat ≤ 100) (b : Fin 32) (s : Fin 100) (h : Fin 768) :
    val_main_v33 (F := Ideal) x0 x1 x2 x3 (ix3 b s h) = pooledAt x0 x1 x2 x3 b s h := by
  rw [val_main_v33_apply, idx33_eq, val_main_v32_apply, Ideal.addf_def, val_main_v31_apply, val_main_v30_apply,
    val_main_v29_apply, sum_split_1536]
  unfold pooledAt
  refine congrArg₂ (· + ·) (congrArg₂ (· + ·) ?_ ?_) ?_
  · refine Finset.sum_congr rfl fun k _ => ?_
    rw [val_main_v28_apply, lidx29_eq]
    exact congrArg₂ (· * ·) ((concat_left x0 x1 (segRow b s) k).trans (trace_read x0 x1 hr b s k))
      (congrArg x2 (funext fun a => by match a with | ⟨0, _⟩ => rfl | ⟨1, _⟩ => rfl))
  · refine Finset.sum_congr rfl fun k _ => ?_
    rw [val_main_v28_apply, lidx29_eq]
    exact congrArg₂ (· * ·) ((concat_right x0 x1 (segRow b s) k).trans (vision_read x0 b s k))
      (congrArg x2 (funext fun a => by match a with | ⟨0, _⟩ => rfl | ⟨1, _⟩ => rfl))
  · exact congrArg x3 (funext fun a => by match a with | ⟨0, _⟩ => rfl)

end Cert.SegPool

end
-- ==== Proof.PreRange.lean ====
/-
  What the precondition says of the labels.

  The precondition is a conjunction of five `all` tests; the last two say that every label compares signed ≥ 1 and
  signed ≤ 100. A 32-bit word with signed value at least 1 has its sign bit clear, so its signed and unsigned values agree,
  and the two comparisons bound the unsigned value between 1 and 100.
-/
import proofs.«429078_j13520557048022_2_alg».proof.Pre_finite_inputs
import Idealize.ShloMosaic.PureOps.Ideal
import Idealize.ShloMosaic.Lib.ReduceAll
import Idealize.ShloMosaic.Lib.ValueIdx
import Idealize.ShloMosaic.Lib.StableHlo.Predicate

noncomputable section

namespace Cert.SegPool

open Idealize.ShloMosaic

/-- A 32-bit word that compares signed ≥ 1 and signed ≤ 100 lies between 1 and 100 read unsigned: its signed value is
positive, so the sign bit is clear and the signed and unsigned readings agree. -/
private theorem toNat_range_of_sge_sle (v : BitVec 32) (h0 : IntOp.cmpi .sge v 1#32 = 1#1)
    (h1 : IntOp.cmpi .sle v 100#32 = 1#1) : 1 ≤ v.toNat ∧ v.toNat ≤ 100 := by
  simp only [IntOp.cmpi, StableHlo.Predicate.ofBool_eq_one_iff, BitVec.sle, decide_eq_true_eq] at h0 h1
  have e1 : (1#32 : BitVec 32).toInt = 1 := by decide
  have e100 : (100#32 : BitVec 32).toInt = 100 := by decide
  rw [e1] at h0
  rw [e100] at h1
  rw [BitVec.toInt_eq_toNat_cond] at h0 h1
  split at h0 <;> omega

/-- Where the precondition is all ones, every label is between 1 and 100. -/
theorem label_range [Cert.Pre_finite_inputs.Facts]
    (a0 : FVec Ideal Cert.Pre_finite_inputs.S32x2100x768 .f32) (a1 : IVec Cert.Pre_finite_inputs.S32x2000 32)
    (a2 : FVec Ideal Cert.Pre_finite_inputs.S768x1536 .f32) (a3 : FVec Ideal Cert.Pre_finite_inputs.S768 .f32)
    (h : Cert.Pre_finite_inputs.fn (F := Ideal) a0 a1 a2 a3 = fun _ => 1#1) :
    ∀ i, 1 ≤ (a1 i).toNat ∧ (a1 i).toNat ≤ 100 := by
  -- the precondition at its one index, with the printed chain unfolded
  have h0 := congrFun h ValueIdx.ix0
  dsimp only [Cert.Pre_finite_inputs.fn, Cert.Pre_finite_inputs.fn_part1] at h0
  -- the conjunction of the five tests, split; only the two over the labels are kept
  simp only [andi, IntOp.andi_eq_one] at h0
  obtain ⟨⟨_, hge⟩, hle⟩ := h0
  intro i
  -- the rank-0 shape has one index
  haveI : Subsingleton Cert.Pre_finite_inputs.S_.Idx := ⟨fun _ _ => funext fun d => d.elim0⟩
  -- each `all` read at the label's index
  have h1 := Host.reduce_andi_all _ _ _ _ _ hge i
  have h2 := Host.reduce_andi_all _ _ _ _ _ hle i
  -- the broadcast constants read 1 and 100 at every index
  change IntOp.cmpi .sge (a1 i) 1#32 = 1#1 at h1
  change IntOp.cmpi .sle (a1 i) 100#32 = 1#1 at h2
  exact toNat_range_of_sge_sle (a1 i) h1 h2

end Cert.SegPool

end
-- ==== Proof.lean ====
/-
  Segment mean pooling and a linear merge: the Pallas kernel against its jnp reference, over the extended reals.

  For each of 32 examples, 2000 trace tokens carry a segment label; the result at (example b, segment s, hidden h) is
  sum_k mean_{t in segment} feat[b, 100 + t, k] * w[h, k] + sum_k mean_{r < 100} feat[b, r, k] * w[h, 768 + k] + bias[h].
  The kernel (one grid step per example) finds a segment's tokens by a one-hot compare of the zero-padded label row with
  s + 1 and sums them by a matrix product; the reference scatters every token to the global row b * 100 + (label - 1) of
  a [3200, 768] array. The two name the same token sets exactly when every label lies in 1..100 (the added precondition:
  outside it the reference's global ids bleed into neighbouring examples while the kernel drops the token). Both sides
  are proved equal to ONE function of the argument arrays, Cert.SegPool.pooled (Proof/Spec.lean):
    * the kernel: Proof/KernelBody.lean (the body's arithmetic at an index), Proof/KernelArray.lean (blocks to array);
    * the reference: Proof/ScatterRead.lean (where a scatter's update lands), Proof/RefScatter.lean (the two scatters
      as segment sums and sizes), Proof/RefTop.lean (the merge: the sum over 1536 columns split in its two halves);
    * Proof/SumLemmas.lean has the index arithmetic, Proof/PreRange.lean reads the label range off the precondition.
  No step needs the float inputs to be finite: a 0/1 weight times x is 0 or x on all of EReal, and the other steps
  only reorder and regroup sums. The frames are the generated ones; the ideal pass rewrote nothing, so preserves is True.
-/
import proofs.«429078_j13520557048022_2_alg».proof.Defs
import proofs.«429078_j13520557048022_2_alg».proof.Proof.Gen.Kernel
import proofs.«429078_j13520557048022_2_alg».proof.Proof.Gen.Kernel.Skeleton
import proofs.«429078_j13520557048022_2_alg».proof.Proof.Gen.Kernel.Launch
import proofs.«429078_j13520557048022_2_alg».proof.Proof.Gen.Kernel.Points
import proofs.«429078_j13520557048022_2_alg».proof.Proof.Gen.Kernel.Frame
import proofs.«429078_j13520557048022_2_alg».proof.Proof.Gen.KernelIdeal
import proofs.«429078_j13520557048022_2_alg».proof.Proof.Gen.KernelIdeal.Skeleton
import proofs.«429078_j13520557048022_2_alg».proof.Proof.Gen.KernelIdeal.Launch
import proofs.«429078_j13520557048022_2_alg».proof.Proof.Gen.KernelIdeal.Points
import proofs.«429078_j13520557048022_2_alg».proof.Proof.Gen.KernelIdeal.Frame
import proofs.«429078_j13520557048022_2_alg».proof.Proof.Gen.ReferenceIdeal
import proofs.«429078_j13520557048022_2_alg».proof.Proof.Gen.Pre_finite_inputs
import proofs.«429078_j13520557048022_2_alg».proof.Proof.Gen.KernelIdeal.Value
import proofs.«429078_j13520557048022_2_alg».proof.Proof.Gen.ReferenceIdeal.Run
import proofs.«429078_j13520557048022_2_alg».proof.Proof.Gen.ReferenceIdeal.Read
import proofs.«429078_j13520557048022_2_alg».proof.Proof.Spec
import proofs.«429078_j13520557048022_2_alg».proof.Proof.KernelArray
import proofs.«429078_j13520557048022_2_alg».proof.Proof.RefTop
import proofs.«429078_j13520557048022_2_alg».proof.Proof.PreRange
import Idealize.ShloMosaic.Adequacy
import Idealize.ShloMosaic.Init

noncomputable section

namespace Cert.Proof

open Idealize.ShloMosaic Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the pooled function of the (agreeing) argument arrays: the kernel whatever the labels,
    the reference where every label is in 1..100, which the precondition says. -/
theorem algebraic : Cert.algebraic_KernelIdeal_ReferenceIdeal := by
  intro m ρ m' ρ' hpre hagree
  refine ⟨_, Cert.SegPool.Kernel.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  refine (Cert.ReferenceIdeal.Read.val_main_v33_eq (F := Ideal) _ _ _ _).trans ?_
  funext i
  have hr := Cert.SegPool.label_range _ _ _ _ (hpre c)
  rw [eq_ix3 i]
  exact Cert.SegPool.ref_read _ _ _ _ hr (i 0) (i 1) (i 2)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
